-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S640000 : Shape := ⟨1, ![640000]⟩
abbrev S200x128 : Shape := ⟨2, ![200, 128]⟩
abbrev S128x128 : Shape := ⟨2, ![128, 128]⟩
abbrev S1x128 : Shape := ⟨2, ![1, 128]⟩
abbrev S_ : Shape := ⟨0, ![]⟩
abbrev S1x640000 : Shape := ⟨2, ![1, 640000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S200x128 : S_.BroadcastsInDim S200x128 (![] : Fin 0 → Fin S200x128.rank)
  reducesTo_S200x128_S_d0_1 : S200x128.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part2 {F : FTy → Type} [FloatOps F] (main_v29 : IVec S_ 1) (main_v34 : IVec S640000 1) : IVec S_ 1 :=
  let main_c_11 : IVec S_ 1 := constantI S_ 1 1#1
  let main_v35 : IVec S_ 1 := (fun x v => Host.reduce IntOp.andi x v reducesTo_S640000_S_d0 h_S_) main_v34 main_c_11
  let main_v36 : IVec S_ 1 := andi main_v29 main_v35
  main_v36

def fn_part1 {F : FTy → Type} [FloatOps F] (main_arg1 : IVec S2x640000 32) (main_arg2 : IVec S640000 32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : IVec S1x640000 32 := (extractStridedSlice S1x640000 ![0, 0] · slices_S2x640000_S1x640000_0_0) main_arg1
  let main_v20 : IVec S640000 32 := shapeCast S640000 main_v19 shapeCasts_S1x640000_S640000
  let main_c_6 : IVec S_ 32 := constantI S_ 32 4294917296#32
  let main_v21 : IVec S640000 32 := broadcastInDim S640000 ![] bcast_S_S640000 main_c_6
  let main_v22 : IVec S640000 1 := cmpi .sge main_v20 main_v21
  let main_v23 : IVec S1x640000 32 := (extractStridedSlice S1x640000 ![0, 0] · slices_S2x640000_S1x640000_0_0) main_arg1
  let main_v24 : IVec S640000 32 := shapeCast S640000 main_v23 shapeCasts_S1x640000_S640000
  let main_c_7 : IVec S_ 32 := constantI S_ 32 50000#32
  let main_v25 : IVec S640000 32 := broadcastInDim S640000 ![] bcast_S_S640000 main_c_7
  let main_v26 : IVec S640000 1 := cmpi .slt main_v24 main_v25
  let main_v27 : IVec S640000 1 := andi main_v22 main_v26
  let main_c_8 : IVec S_ 1 := constantI S_ 1 1#1
  let main_v28 : IVec S_ 1 := (fun x v => Host.reduce IntOp.andi x v reducesTo_S640000_S_d0 h_S_) main_v27 main_c_8
  let main_v29 : IVec S_ 1 := andi main_v18 main_v28
  let main_c_9 : IVec S_ 32 := constantI S_ 32 0#32
  let main_v30 : IVec S640000 32 := broadcastInDim S640000 ![] bcast_S_S640000 main_c_9
  let main_v31 : IVec S640000 1 := cmpi .sge main_arg2 main_v30
  let main_c_10 : IVec S_ 32 := constantI S_ 32 200#32
  let main_v32 : IVec S640000 32 := broadcastInDim S640000 ![] bcast_S_S640000 main_c_10
  let main_v33 : IVec S640000 1 := cmpi .slt main_arg2 main_v32
  let main_v34 : IVec S640000 1 := andi main_v31 main_v33
  fn_part2 (F := F) main_v29 main_v34

def fn {F : FTy → Type} [FloatOps F] (main_arg0 : FVec F S50000x128 .f32) (main_arg1 : IVec S2x640000 32) (main_arg2 : IVec S640000 32) (main_arg3 : FVec F S200x128 .f32) (main_arg4 : FVec F S128x128 .f32) (main_arg5 : FVec F S1x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S200x128 .f32 := Host.absf main_arg3
  let main_cst_0 : FVec F S_ .f32 := constant S_ .f32 0x7F800000#32
  let main_v5 : FVec F S200x128 .f32 := broadcastInDim S200x128 ![] bcast_S_S200x128 main_cst_0
  let main_v6 : IVec S200x128 1 := cmpf .olt main_v4 main_v5
  let main_c_1 : IVec S_ 1 := constantI S_ 1 1#1
  let main_v7 : IVec S_ 1 := (fun x v => Host.reduce IntOp.andi x v reducesTo_S200x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S1x128 .f32 := Host.absf main_arg5
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg1 main_arg2 main_v13 main_v16
-- ==== Kernel.lean ====
abbrev S50000x128 : Shape := ⟨2, ![50000, 128]⟩
abbrev S2x640000 : Shape := ⟨2, ![2, 640000]⟩
abbrev S640000 : Shape := ⟨1, ![640000]⟩
abbrev S200x128 : Shape := ⟨2, ![200, 128]⟩
abbrev S128x128 : Shape := ⟨2, ![128, 128]⟩
abbrev S1x128 : Shape := ⟨2, ![1, 128]⟩
abbrev S1x640000 : Shape := ⟨2, ![1, 640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S208x128 : Shape := ⟨2, ![208, 128]⟩
abbrev S6400x128 : Shape := ⟨2, ![6400, 128]⟩
abbrev S1x6400 : Shape := ⟨2, ![1, 6400]⟩
abbrev S208x6400 : Shape := ⟨2, ![208, 6400]⟩
abbrev S6400 : Shape := ⟨1, ![6400]⟩
abbrev S6400x1 : Shape := ⟨2, ![6400, 1]⟩

abbrev nBuf : Space → Nat
  | .hbm => 46
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000, .i32⟩
  | .hbm, ⟨3, _⟩ => ⟨S200x128, .f32⟩
  | .hbm, ⟨4, _⟩ => ⟨S128x128, .f32⟩
  | .hbm, ⟨5, _⟩ => ⟨S1x128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S1, .i32⟩
  | .hbm, ⟨19, _⟩ => ⟨S_, .i32⟩
  | .hbm, ⟨20, _⟩ => ⟨S640000x1, .i32⟩
  | .hbm, ⟨21, _⟩ => ⟨S640000x1, .i1⟩
  | .hbm, ⟨22, _⟩ => ⟨S1x1, .i32⟩
  | .hbm, ⟨23, _⟩ => ⟨S640000x1, .i32⟩
  | .hbm, ⟨24, _⟩ => ⟨S640000x1, .i1⟩
  | .hbm, ⟨25, _⟩ => ⟨S640000x1, .i1⟩
  | .hbm, ⟨26, _⟩ => ⟨S_, .i1⟩
  | .hbm, ⟨27, _⟩ => ⟨S640000, .i1⟩
  | .hbm, ⟨28, _⟩ => ⟨S640000x128, .f32⟩
  | .hbm, ⟨29, _⟩ => ⟨S640000x128, .i1⟩
  | .hbm, ⟨30, _⟩ => ⟨S_, .f32⟩
  | .hbm, ⟨31, _⟩ => ⟨S640000x128, .f32⟩
  | .hbm, ⟨32, _⟩ => ⟨S640000x128, .f32⟩
  | .hbm, ⟨33, _⟩ => ⟨S128x128, .f32⟩
  | .hbm, ⟨34, _⟩ => ⟨S_, .i32⟩
  | .hbm, ⟨35, _⟩ => ⟨S_, .f32⟩
  | .hbm, ⟨36, _⟩ => ⟨S208x128, .f32⟩
  | .hbm, ⟨37, _⟩ => ⟨S1x640000, .i32⟩
  | .hbm, ⟨38, _⟩ => ⟨S640000x128, .f32⟩
  | .hbm, ⟨39, _⟩ => ⟨S_, .f32⟩
  | .hbm, ⟨40, _⟩ => ⟨S50000x128, .f32⟩
  | .hbm, ⟨41, _⟩ => ⟨S640000x1, .i32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .local _ .vmem, ⟨0, _⟩ => ⟨S6400x128, .f32⟩
  | .local _ .vmem, ⟨1, _⟩ => ⟨S6400x128, .f32⟩
  | .local _ .vmem, ⟨2, _⟩ => ⟨S1x6400, .i32⟩
  | .local _ .vmem, ⟨3, _⟩ => ⟨S1x6400, .i32⟩
  | .local _ .vmem, ⟨4, _⟩ => ⟨S208x128, .f32⟩
  | .local _ .vmem, ⟨5, _⟩ => ⟨S128x128, .f32⟩
  | .local _ .vmem, ⟨6, _⟩ => ⟨S1x128, .f32⟩
  | .local _ .vmem, ⟨7, _⟩ => ⟨S6400x128, .f32⟩
  | .local _ .vmem, ⟨8, _⟩ => ⟨S6400x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_v5 : Ref sig .tc := ⟨.hbm, 33, rfl⟩
abbrev main_c : Ref sig .tc := ⟨.hbm, 34, rfl⟩
abbrev main_call1_v0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_call2_cst : Ref sig .tc := ⟨.hbm, 43, rfl⟩
abbrev main_call2_v0 : Ref sig .tc := ⟨.hbm, 44, rfl⟩
abbrev main_v12 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6400 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S208x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  transposes_S128x128_S128x128_1_0 : S128x128.Transposes [1, 0] S128x128
  pads_S200x128_S208x128_080_000 : S200x128.Pads (![0, 0] : Fin 2 → Nat) ![8, 0] ![0, 0] S208x128
  shapeCasts_S640000_S1x640000 : S640000.ShapeCasts S1x640000
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  iota_S208x6400_d0_w32 : S208x6400.Iotas .tc 32 [0]
  inb_S1x6400_S1x6400_0_0 : ∀ a, (![0, 0] : Fin 2 → Nat) a + S1x6400.size a ≤ S1x6400.size a
  h_S1x6400 : 0 < S1x6400.numel
  shapeCasts_S1x6400_S1x6400 : S1x6400.ShapeCasts S1x6400
  broadcasts_S1x6400_S208x6400 : S1x6400.Broadcasts S208x6400
  natLt_1_32 : 1 < 32
  inb_S208x128_S208x128_0_0 : ∀ a, (![0, 0] : Fin 2 → Nat) a + S208x128.size a ≤ S208x128.size a
  h_S208x128 : 0 < S208x128.numel
  shapeCasts_S208x128_S208x128 : S208x128.ShapeCasts S208x128
  inb_S1x128_S1x128_0_0 : ∀ a, (![0, 0] : Fin 2 → Nat) a + S1x128.size a ≤ S1x128.size a
  h_S1x128 : 0 < S1x128.numel
  broadcasts_S1x128_S6400x128 : S1x128.Broadcasts S6400x128
  reduces_S6400x128_S6400 : S6400x128.Reduces [1] S6400
  shapeCasts_S6400_S6400x1 : S6400.ShapeCasts S6400x1
  broadcasts_S6400x1_S6400x128 : S6400x1.Broadcasts S6400x128
  bcast_S_S50000x128 : S_.BroadcastsInDim S50000x128 (![] : Fin 0 → Fin S50000x128.rank)
  gather_S50000x128_S640000x1_S640000x128_1_0_n_n_0_1_1128_wf : GatherDims.WF S50000x128 S640000x1 S640000x128 [1] [0] [] [0] [] 1 ![1, 128]
  dot_S6400x128_S128x128_S6400x128_1_0_0_1_n_n_wf : DotDims.WF S6400x128 S128x128 S6400x128 [1] [0] [0] [1] [] []
  dot_S208x6400_S208x128_S6400x128_0_0_1_1_n_n_wf : DotDims.WF S208x6400 S208x128 S6400x128 [0] [0] [1] [1] [] []
  scatter_S50000x128_S640000x1_S640000x128_1_0_0_1_wf : ScatterDims.WF S50000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S640000x128.size a
  hwx0_0 : ∀ i : grid0.Coords, EltTy.bits .f32 = 32 ∨ (Rect.block (s := S640000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x6400.size a ≤ S1x640000.size a
  hwx0_1 : ∀ i : grid0.Coords, EltTy.bits .i32 = 32 ∨ (Rect.block (s := S1x640000) S1x6400.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S208x128.size a ≤ S208x128.size a
  hwx0_2 : ∀ i : grid0.Coords, EltTy.bits .f32 = 32 ∨ (Rect.block (s := S208x128) S208x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x128.size a ≤ S640000x128.size a
  hwx0_5 : ∀ i : grid0.Coords, EltTy.bits .f32 = 32 ∨ (Rect.block (s := S640000x128) S6400x128.size (cc0_transform_5 i) (hinb0_5 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S208x6400_S208x128_S6400x128_0_0_1_1_n_n : DotDims S208x6400 S208x128 S6400x128 where
  lhsContracting := [0]
  rhsContracting := [0]
  lhsNonContracting := [1]
  rhsNonContracting := [1]
  lhsBatch := []
  rhsBatch := []
  wf := dot_S208x6400_S208x128_S6400x128_0_0_1_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

abbrev win0_0 : Pipeline.Window sig grid0 :=
  Pipeline.Window.ofSpec (Memref.whole main_v4) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x6400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S208x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S6400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S640000 : Shape := ⟨1, ![640000]⟩
abbrev S200x128 : Shape := ⟨2, ![200, 128]⟩
abbrev S128x128 : Shape := ⟨2, ![128, 128]⟩
abbrev S1x128 : Shape := ⟨2, ![1, 128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S128x1 : Shape := ⟨2, ![128, 1]⟩

abbrev nBuf : Space → Nat
  | .hbm => 59
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000, .i32⟩
  | .hbm, ⟨3, _⟩ => ⟨S200x128, .f32⟩
  | .hbm, ⟨4, _⟩ => ⟨S128x128, .f32⟩
  | .hbm, ⟨5, _⟩ => ⟨S1x128, .f32⟩
  | .hbm, ⟨6, _⟩ => ⟨S128x128, .f32⟩
  | .hbm, ⟨7, _⟩ => ⟨S50000x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S640000x128, .f32⟩
  | .hbm, ⟨31, _⟩ => ⟨S128x1, .f32⟩
  | .hbm, ⟨32, _⟩ => ⟨S640000x1, .f32⟩
  | .hbm, ⟨33, _⟩ => ⟨S640000x1, .f32⟩
  | .hbm, ⟨34, _⟩ => ⟨S640000x1, .f32⟩
  | .hbm, ⟨35, _⟩ => ⟨S_, .f32⟩
  | .hbm, ⟨36, _⟩ => ⟨S640000x1, .f32⟩
  | .hbm, ⟨37, _⟩ => ⟨S640000x1, .f32⟩
  | .hbm, ⟨38, _⟩ => ⟨S_, .f32⟩
  | .hbm, ⟨39, _⟩ => ⟨S640000x1, .f32⟩
  | .hbm, ⟨40, _⟩ => ⟨S640000x1, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S640000x128, .f32⟩
  | .hbm, ⟨51, _⟩ => ⟨S640000x128, .f32⟩
  | .hbm, ⟨52, _⟩ => ⟨S_, .f32⟩
  | .hbm, ⟨53, _⟩ => ⟨S50000x128, .f32⟩
  | .hbm, ⟨54, _⟩ => ⟨S640000x1, .i32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_cst : Ref sig .tc := ⟨.hbm, 56, rfl⟩
abbrev main_call0_v0 : Ref sig .tc := ⟨.hbm, 57, rfl⟩
abbrev main_v41 : Ref sig .tc := ⟨.hbm, 58, rfl⟩

abbrev nD : Nat := 1
abbrev τ : Topo := Topo.v7x

variable {F : FTy → Type} [FloatOps F]

class Facts₀ : Prop where
  transposes_S128x128_S128x128_1_0 : S128x128.Transposes [1, 0] S128x128
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  transposes_S1x128_S128x1_1_0 : S1x128.Transposes [1, 0] S128x1
  bcast_S_S640000x1 : S_.BroadcastsInDim S640000x1 (![] : Fin 0 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  gather_S200x128_S640000x1_S640000x128_1_0_n_n_0_1_1128_wf : GatherDims.WF S200x128 S640000x1 S640000x128 [1] [0] [] [0] [] 1 ![1, 128]
  dot_S640000x128_S128x1_S640000x1_1_0_0_1_n_n_wf : DotDims.WF S640000x128 S128x1 S640000x1 [1] [0] [0] [1] [] []
  scatter_S50000x128_S640000x1_S640000x128_1_0_0_1_wf : ScatterDims.WF S50000x128 S640000x1 S640000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S200x128_S640000x1_S640000x128_1_0_n_n_0_1_1128 : GatherDims S200x128 S640000x1 S640000x128 where
  offsetDims := [1]
  collapsedSliceDims := [0]
  operandBatchingDims := []
  startIndicesBatchingDims := []
  startIndexMap := [0]
  indexVectorDim := 1
  sliceSizes := ![1, 128]
  wf := gather_S200x128_S640000x1_S640000x128_1_0_n_n_0_1_1128_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

class Facts : Prop extends Facts₀ where

variable [Facts]
-- ==== Proof.Spec.lean ====
/-
  The message of a relational graph-convolution layer, as ONE function of the layer's arguments, element by element
  on the extended reals.

  Edge `e` has a source node `s = src e`, a relation type `t = typ e` and reads row `s` of the node table `x`
  and row `t` of the relation table `rel`. Its message, in feature `j`, is

      msg e j = (∑ k, x s k · W j k) · σ (∑ d, (x s d + rel t d) · a d),      σ z = 1 / (1 + e⁻ᶻ):

  the source's features through the linear map `W`, scaled by one attention weight per edge, the logistic of the
  attention vector `a` against the sum of the source's features and the relation's embedding.
  Both indices are read as signed 32-bit words in the numpy manner — a negative index counts from the end of its
  table, then the result is clamped into the table, as a gather clamps its start index — so the rows are total
  functions of the words, with no side condition.
-/
import Idealize.ShloMosaic.Lib.ValueIdx
import Idealize.ShloMosaic.PureOps.Ideal.Laws

noncomputable section

open scoped BigOperators

namespace Cert.RelGcn

open Idealize.ShloMosaic Idealize.ShloMosaic.ValueIdx

/-- A signed index into an axis of extent `n`, numpy style: a negative word counts from the end. -/
def wrapIdx (n s : BitVec 32) : BitVec 32 := Scalar.select (IntOp.cmpi .slt s 0#32) (IntOp.addi s n) s

/-- The row of the node table edge `e` reads: its source word (row 0 of the edge list), wrapped, clamped into the table. -/
def srcRow (ei : IVec ⟨2, ![2, 640000]⟩ 32) (e : Fin 640000) : Fin 50000 :=
  ⟨min (wrapIdx 50000#32 (ei (ix2 (0 : Fin 2) e))).toInt.toNat 49999, by omega⟩

/-- The row of the relation table edge `e` reads: its type word, wrapped, clamped into the table. -/
def relRow (et : IVec ⟨1, ![640000]⟩ 32) (e : Fin 640000) : Fin 200 :=
  ⟨min (wrapIdx 200#32 (et (ix1 e))).toInt.toNat 199, by omega⟩

/-- The source's features through the linear map: `∑ k, x (src e) k · W j k`. -/
def proj (x : FVec Ideal ⟨2, ![50000, 128]⟩ .f32) (ei : IVec ⟨2, ![2, 640000]⟩ 32) (W : FVec Ideal ⟨2, ![128, 128]⟩ .f32)
    (e : Fin 640000) (j : Fin 128) : EReal :=
  ∑ k : Fin 128, x (ix2 (srcRow ei e) k) * W (ix2 j k)

/-- The attention logit of edge `e`: `∑ d, (x (src e) d + rel (typ e) d) · a d`. -/
def logit (x : FVec Ideal ⟨2, ![50000, 128]⟩ .f32) (ei : IVec ⟨2, ![2, 640000]⟩ 32) (et : IVec ⟨1, ![640000]⟩ 32)
    (rel : FVec Ideal ⟨2, ![200, 128]⟩ .f32) (a : FVec Ideal ⟨2, ![1, 128]⟩ .f32) (e : Fin 640000) : EReal :=
  ∑ d : Fin 128, (x (ix2 (srcRow ei e) d) + rel (ix2 (relRow et e) d)) * a (ix2 (0 : Fin 1) d)

/-- The message at edge `e`, feature `j`. -/
def msgAt (x : FVec Ideal ⟨2, ![50000, 128]⟩ .f32) (ei : IVec ⟨2, ![2, 640000]⟩ 32) (et : IVec ⟨1, ![640000]⟩ 32)
    (rel : FVec Ideal ⟨2, ![200, 128]⟩ .f32) (W : FVec Ideal ⟨2, ![128, 128]⟩ .f32) (a : FVec Ideal ⟨2, ![1, 128]⟩ .f32)
    (e : Fin 640000) (j : Fin 128) : EReal :=
  proj x ei W e j * Ideal.logistic (logit x ei et rel a e)

/-- The whole message array `[640000, 128]`. -/
def msg (x : FVec Ideal ⟨2, ![50000, 128]⟩ .f32) (ei : IVec ⟨2, ![2, 640000]⟩ 32) (et : IVec ⟨1, ![640000]⟩ 32)
    (rel : FVec Ideal ⟨2, ![200, 128]⟩ .f32) (W : FVec Ideal ⟨2, ![128, 128]⟩ .f32) (a : FVec Ideal ⟨2, ![1, 128]⟩ .f32) :
    FVec Ideal ⟨2, ![640000, 128]⟩ .f32 :=
  fun i => msgAt x ei et rel W a ⟨(i 0).val, idx2_lt0 i⟩ ⟨(i 1).val, idx2_lt1 i⟩

theorem msg_apply (x : FVec Ideal ⟨2, ![50000, 128]⟩ .f32) (ei : IVec ⟨2, ![2, 640000]⟩ 32) (et : IVec ⟨1, ![640000]⟩ 32)
    (rel : FVec Ideal ⟨2, ![200, 128]⟩ .f32) (W : FVec Ideal ⟨2, ![128, 128]⟩ .f32) (a : FVec Ideal ⟨2, ![1, 128]⟩ .f32)
    (e : Fin 640000) (j : Fin 128) : msg x ei et rel W a (ix2 e j) = msgAt x ei et rel W a e j := rfl

end Cert.RelGcn

end
-- ==== Proof.Pre.lean ====
/-
  What the precondition says of the two index inputs: every source word of the edge list lies in
  `[-50000, 50000)` (an index into the node table, numpy style) and every relation type in `[0, 200)`.
-/
import proofs.«409175_j2662879724148_2_alg».proof.Pre_finite_inputs
import proofs.«409175_j2662879724148_2_alg».proof.Proof.Gen.Pre_finite_inputs
import Idealize.ShloMosaic.Lib.ValueIdx
import Idealize.ShloMosaic.Lib.ReduceAll
import Idealize.ShloMosaic.Lib.StableHlo.Predicate
import Idealize.ShloMosaic.Lib.Pipeline.Value

noncomputable section

namespace Cert.RelGcn

open Idealize.ShloMosaic Idealize.ShloMosaic.ValueIdx Cert.Pre_finite_inputs

variable {F : FTy → Type} [FloatOps F]

/-- The scalar shape has one index. -/
private instance subsingleton_scalarIdx : Subsingleton S_.Idx := ⟨fun a b => funext fun d => d.elim0⟩

/-- A conjunction of two `i1` arrays, read at an index. -/
private theorem andi_at {s : Shape} {w : Nat} (x y : IVec s w) (i : s.Idx) :
    andi x y i = IntOp.andi (x i) (y i) := rfl

/-- A comparison of two word arrays, read at an index. -/
private theorem cmpi_at {s : Shape} {w : Nat} (p : CmpIPredicate) (x y : IVec s w) (i : s.Idx) :
    cmpi p x y i = IntOp.cmpi p (x i) (y i) := rfl

/-- A scalar constant broadcast to the edge vector reads the constant everywhere. -/
private theorem bcast_const_at (c : BitVec 32) (i : S640000.Idx) :
    broadcastInDim S640000 ![] Facts.bcast_S_S640000 (constantI S_ 32 c) i = c := rfl

/-- Row 0 of the edge list, flattened to a vector, reads at `e` the edge list at `(0, e)`. -/
private theorem src_at (x1 : IVec S2x640000 32) (e : Fin 640000) :
    shapeCast S640000 (extractStridedSlice S1x640000 ![0, 0] x1 Facts.slices_S2x640000_S1x640000_0_0)
      Facts.shapeCasts_S1x640000_S640000 (ix1 e) = x1 (ix2 (0 : Fin 2) e) := by
  -- the reshape [1, 640000] → [640000] keeps the row-major position: (0, e) ↦ e
  rw [shapeCast_apply _ Facts.shapeCasts_S1x640000_S640000 (ix1 e) (ix2 (0 : Fin 1) e)
    (by rw [Shape.rowMajor_val_two, Shape.rowMajor_val_one]; show 0 * 640000 + e.val = e.val; omega)]
  -- the slice [0:1, 0:640000] has offset 0 on both axes
  exact extractStridedSlice_apply ![0, 0] x1 Facts.slices_S2x640000_S1x640000_0_0 (ix2 (0 : Fin 1) e) (ix2 (0 : Fin 2) e)
    (fun a => match a with
      | ⟨0, _⟩ => by show (0 : Nat) = 0 + 0; omega
      | ⟨1, _⟩ => by show e.val = 0 + e.val; omega)

/-- The four bounds as signed integers. -/
private theorem toInt_lo : (4294917296#32 : BitVec 32).toInt = -50000 := by decide
private theorem toInt_hi : (50000#32 : BitVec 32).toInt = 50000 := by decide
private theorem toInt_zero : (0#32 : BitVec 32).toInt = 0 := by decide
private theorem toInt_200 : (200#32 : BitVec 32).toInt = 200 := by decide

/-- Every source word is an index into the node table, numpy style. -/
theorem src_in_range (x0 : FVec F S50000x128 .f32) (x1 : IVec S2x640000 32) (x2 : IVec S640000 32)
    (x3 : FVec F S200x128 .f32) (x4 : FVec F S128x128 .f32) (x5 : FVec F S1x128 .f32)
    (h : Cert.Pre_finite_inputs.fn (F := F) x0 x1 x2 x3 x4 x5 = fun _ => 1#1) (e : Fin 640000) :
    -50000 ≤ (x1 (ix2 (0 : Fin 2) e)).toInt ∧ (x1 (ix2 (0 : Fin 2) e)).toInt < 50000 := by
  have h0 := congrFun h ValueIdx.ix0
  dsimp only [fn, fn_part1, fn_part2] at h0
  -- the outer conjunction is (… ∧ all(src in range)) ∧ all(typ in range): keep the fifth conjunct
  rw [andi_at, IntOp.andi_eq_one] at h0
  obtain ⟨h29, -⟩ := h0
  rw [andi_at, IntOp.andi_eq_one] at h29
  obtain ⟨-, h28⟩ := h29
  -- `jnp.all` of the comparison array: the comparison holds at every edge
  have he := Host.reduce_andi_all _ _ _ _ _ h28 (ix1 e)
  rw [andi_at, IntOp.andi_eq_one, cmpi_at, cmpi_at, IntOp.cmpi_sge, IntOp.cmpi_slt, bcast_const_at, bcast_const_at,
    src_at, toInt_lo, toInt_hi] at he
  exact he

/-- Every relation type is a row of the relation table. -/
theorem typ_in_range (x0 : FVec F S50000x128 .f32) (x1 : IVec S2x640000 32) (x2 : IVec S640000 32)
    (x3 : FVec F S200x128 .f32) (x4 : FVec F S128x128 .f32) (x5 : FVec F S1x128 .f32)
    (h : Cert.Pre_finite_inputs.fn (F := F) x0 x1 x2 x3 x4 x5 = fun _ => 1#1) (e : Fin 640000) :
    0 ≤ (x2 (ix1 e)).toInt ∧ (x2 (ix1 e)).toInt < 200 := by
  have h0 := congrFun h ValueIdx.ix0
  dsimp only [fn, fn_part1, fn_part2] at h0
  -- the outermost conjunct is all(typ in range)
  rw [andi_at, IntOp.andi_eq_one] at h0
  obtain ⟨-, h35⟩ := h0
  have he := Host.reduce_andi_all _ _ _ _ _ h35 (ix1 e)
  rw [andi_at, IntOp.andi_eq_one, cmpi_at, cmpi_at, IntOp.cmpi_sge, IntOp.cmpi_slt, bcast_const_at, bcast_const_at,
    toInt_zero, toInt_200] at he
  exact he

end Cert.RelGcn

end
-- ==== Proof.LibRowGather.lean ====
/-
  A row gather read at an index: `table[idx]` for a table `[N, C]` and a column `[R, 1]` of start indices.

  `stablehlo.gather` with offset axis 1, collapsed axis 0, start index map [0], the index vector on axis 1 and
  slices `[1, C]`: result element `(e, j)` is the table's at row `idx[e, 0]` — read as a signed word and clamped
  into `[0, N − 1]`, as every gather clamps its start — and column `j`.
-/
import Idealize.ShloMosaic.Lib.ValueIdx

noncomputable section

namespace Idealize.ShloMosaic.RowGather

open Idealize.ShloMosaic Idealize.ShloMosaic.ValueIdx

/-- Those dimension numbers; their conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand index's ROW: the start index `idx[e, 0]`, read signed and clamped into `[0, N − 1]`. -/
theorem operandIdx_row {N R C w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (j : Fin C) :
    ((rowDims N R C wf).operandIdx (ix2 e j) idx (0 : Fin 2)).val = min (idx (ix2 e (0 : Fin 1))).toInt.toNat (N - 1) := by
  show (rowDims N R C wf).start (ix2 e j) idx 0 + (rowDims N R C wf).batchCoord (ix2 e j) 0
      + (rowDims N R C wf).offCoord (ix2 e j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N R C wf).startIndexMap from List.mem_singleton.mpr rfl)]
  have hsi : (rowDims N R C wf).siIdx (ix2 e j) ⟨List.idxOf (0 : Fin 2) (rowDims N R C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The operand index's COLUMN: the result's own column. -/
theorem operandIdx_col {N R C w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (j : Fin C) :
    ((rowDims N R C wf).operandIdx (ix2 e j) idx (1 : Fin 2)).val = j.val := by
  show (rowDims N R C wf).start (ix2 e j) idx 1 + (rowDims N R C wf).batchCoord (ix2 e j) 1
      + (rowDims N R C wf).offCoord (ix2 e j) 1 = _
  rw [GatherDims.batchCoord_eq_zero _ _ _ List.not_mem_nil]
  unfold GatherDims.start
  rw [dif_neg (show ¬ (1 : Fin 2) ∈ (rowDims N R C wf).startIndexMap from
    (by decide : ¬ (1 : Fin 2) ∈ ([0] : List (Fin 2))))]
  unfold GatherDims.offCoord
  rw [dif_pos (show (1 : Fin 2) ∈ (rowDims N R C wf).sKept from (GatherDims.mem_sKept _ _).mpr
    ⟨(by decide : ¬ (1 : Fin 2) ∈ ([0] : List (Fin 2))), List.not_mem_nil⟩)]
  simp only [Nat.zero_add]
  rfl

/-- THE ROW GATHER READ AT `(e, j)`: the table at the start index `idx[e, 0]`, read signed and clamped into
    `[0, N − 1]`, and column `j`. -/
theorem gather_rows_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ => exact operandIdx_row wf idx e j
  | ⟨1, _⟩ => exact operandIdx_col wf idx e j

end Idealize.ShloMosaic.RowGather

end
-- ==== Proof.RefMsg.lean ====
/-
  The reference's message array is the specification's, element by element, with no side condition.

  At index (e, j) the reference multiplies two numbers. The first is the row-gathered projection: the table
  x · Wᵀ read at the row the wrapped, clamped source word of edge e names, which is ∑ k, x (src e) k · W j k.
  The second is 1 / (1 + exp (−z)) of z = ∑ d, (x (src e) d + rel (typ e) d) · a d, the logistic of the
  attention logit, broadcast along the feature axis. Each start-index column is the signed wrap of its word, so the
  gathered rows are the specification's rows.
-/
import proofs.«409175_j2662879724148_2_alg».proof.Proof.Gen.ReferenceIdeal.Read
import proofs.«409175_j2662879724148_2_alg».proof.Proof.Spec
import proofs.«409175_j2662879724148_2_alg».proof.Proof.LibRowGather

noncomputable section

open scoped BigOperators

namespace Cert.RelGcn

open Idealize.ShloMosaic Idealize.ShloMosaic.ValueIdx Cert.ReferenceIdeal Cert.ReferenceIdeal.Read

/-- The bit pattern 0x3F800000 is the number one. -/
private theorem ofBits_one : Ideal.ofBits .f32 0x3F800000#32 = 1 := by
  simp [Ideal.ofBits, Ideal.ieee, -EReal.coe_mul]; norm_num

/-- A clamped row depends only on its start word. -/
private theorem row_congr {n : Nat} (w w' : BitVec 32) (m : Nat) (h : min w.toInt.toNat m < n)
    (h' : min w'.toInt.toNat m < n) (hw : w = w') :
    (⟨min w.toInt.toNat m, h⟩ : Fin n) = ⟨min w'.toInt.toNat m, h'⟩ := by
  subst hw
  rfl

/-- The flattened first row of the edge list at `e` is the source word of edge `e`. -/
private theorem v3_at (x1 : (⟨S2x640000, .i32⟩ : BufTy).Contents (Elt Ideal)) (e : Fin 640000) :
    val_main_v3 (F := Ideal) x1 (ix1 e) = x1 (ix2 (0 : Fin 2) e) := by
  rw [val_main_v3_apply, val_main_v2_apply]
  congr 1
  funext a
  refine Fin.ext ?_
  match a with
  | ⟨0, _⟩ => rfl
  | ⟨1, _⟩ =>
    show e.val % 640000 = e.val
    have := e.isLt
    omega

/-- The start-index column of the first gather at `(e, 0)`: the wrapped source word. -/
private theorem v11_at (x1 : (⟨S2x640000, .i32⟩ : BufTy).Contents (Elt Ideal)) (e : Fin 640000) :
    val_main_v11 (F := Ideal) x1 (ix2 e (0 : Fin 1)) = wrapIdx 50000#32 (x1 (ix2 (0 : Fin 2) e)) := by
  have hi : idx_main_v11 (ix2 e (0 : Fin 1)) = ix1 e := by
    funext a
    match a with
    | ⟨0, _⟩ => rfl
  rw [val_main_v11_apply, hi, val_main_v10_apply, val_main_v7_apply, val_main_v9_apply, val_main_v6_apply,
    val_main_v8_apply, val_main_c_apply, val_main_c_0_apply, v3_at]
  rfl

/-- The start-index column of the projected gather at `(e, 0)`: the wrapped source word again. -/
private theorem v34_at (x1 : (⟨S2x640000, .i32⟩ : BufTy).Contents (Elt Ideal)) (e : Fin 640000) :
    val_main_v34 (F := Ideal) x1 (ix2 e (0 : Fin 1)) = wrapIdx 50000#32 (x1 (ix2 (0 : Fin 2) e)) := by
  have hi : idx_main_v34 (ix2 e (0 : Fin 1)) = ix1 e := by
    funext a
    match a with
    | ⟨0, _⟩ => rfl
  rw [val_main_v34_apply, hi, val_main_v33_apply, val_main_v30_apply, val_main_v32_apply, val_main_v29_apply,
    val_main_v31_apply, val_main_c_4_apply, val_main_c_5_apply, v3_at]
  rfl

/-- The start-index column of the relation gather at `(e, 0)`: the wrapped type word. -/
private theorem v18_at (x2 : (⟨S640000, .i32⟩ : BufTy).Contents (Elt Ideal)) (e : Fin 640000) :
    val_main_v18 (F := Ideal) x2 (ix2 e (0 : Fin 1)) = wrapIdx 200#32 (x2 (ix1 e)) := by
  have hi : idx_main_v18 (ix2 e (0 : Fin 1)) = ix1 e := by
    funext a
    match a with
    | ⟨0, _⟩ => rfl
  rw [val_main_v18_apply, hi, val_main_v17_apply, val_main_v14_apply, val_main_v16_apply, val_main_v13_apply,
    val_main_v15_apply, val_main_c_1_apply, val_main_c_2_apply]
  rfl

/-- The first gather at `(e, k)`: the node table at the source row. -/
private theorem v12_at (x0 : (⟨S50000x128, .f32⟩ : BufTy).Contents (Elt Ideal))
    (x1 : (⟨S2x640000, .i32⟩ : BufTy).Contents (Elt Ideal)) (e : Fin 640000) (k : Fin 128) :
    val_main_v12 (F := Ideal) x0 x1 (ix2 e k) = x0 (ix2 (srcRow x1 e) k) := by
  unfold val_main_v12
  refine (RowGather.gather_rows_apply (N := 50000) (R := 640000) (C := 128) (by decide)
    Facts₀.gather_S50000x128_S640000x1_S640000x128_1_0_n_n_0_1_1128_wf x0 (val_main_v11 (F := Ideal) x1) e k).trans ?_
  exact congrArg (fun r => x0 (ix2 r k)) (row_congr _ _ _ _ _ (v11_at x1 e))

/-- The relation gather at `(e, k)`: the relation table at the type row. -/
private theorem v19_at (x2 : (⟨S640000, .i32⟩ : BufTy).Contents (Elt Ideal))
    (x3 : (⟨S200x128, .f32⟩ : BufTy).Contents (Elt Ideal)) (e : Fin 640000) (k : Fin 128) :
    val_main_v19 (F := Ideal) x2 x3 (ix2 e k) = x3 (ix2 (relRow x2 e) k) := by
  unfold val_main_v19
  refine (RowGather.gather_rows_apply (N := 200) (R := 640000) (C := 128) (by decide)
    Facts₀.gather_S200x128_S640000x1_S640000x128_1_0_n_n_0_1_1128_wf x3 (val_main_v18 (F := Ideal) x2) e k).trans ?_
  exact congrArg (fun r => x3 (ix2 r k)) (row_congr _ _ _ _ _ (v18_at x2 e))

/-- The projection table at `(r, j)`: `∑ k, x r k · W j k`. -/
private theorem v1_at (x0 : (⟨S50000x128, .f32⟩ : BufTy).Contents (Elt Ideal))
    (x4 : (⟨S128x128, .f32⟩ : BufTy).Contents (Elt Ideal)) (r : Fin 50000) (j : Fin 128) :
    val_main_v1 (F := Ideal) x0 x4 (ix2 r j) = ∑ k : Fin 128, x0 (ix2 r k) * x4 (ix2 j k) := by
  rw [val_main_v1_apply]
  refine Finset.sum_congr rfl fun k _ => ?_
  rw [val_main_v0_apply]
  have hl : lidx_main_v1 (ix2 r j) k = ix2 r k := by
    funext a
    match a with
    | ⟨0, _⟩ => rfl
    | ⟨1, _⟩ => rfl
  have hr : idx_main_v0 (ridx_main_v1 (ix2 r j) k) = ix2 j k := by
    funext a
    match a with
    | ⟨0, _⟩ => rfl
    | ⟨1, _⟩ => rfl
  rw [hl, hr]

/-- The projected gather at `(e, j)`: the specification's projection. -/
private theorem v35_at (x0 : (⟨S50000x128, .f32⟩ : BufTy).Contents (Elt Ideal))
    (x1 : (⟨S2x640000, .i32⟩ : BufTy).Contents (Elt Ideal)) (x4 : (⟨S128x128, .f32⟩ : BufTy).Contents (Elt Ideal))
    (e : Fin 640000) (j : Fin 128) :
    val_main_v35 (F := Ideal) x0 x1 x4 (ix2 e j) = proj x0 x1 x4 e j := by
  unfold val_main_v35
  refine (RowGather.gather_rows_apply (N := 50000) (R := 640000) (C := 128) (by decide)
    Facts₀.gather_S50000x128_S640000x1_S640000x128_1_0_n_n_0_1_1128_wf (val_main_v1 (F := Ideal) x0 x4)
    (val_main_v34 (F := Ideal) x1) e j).trans ?_
  exact (congrArg (fun r => val_main_v1 (F := Ideal) x0 x4 (ix2 r j))
    (row_congr _ _ _ _ (srcRow x1 e).isLt (v34_at x1 e))).trans (v1_at x0 x4 (srcRow x1 e) j)

/-- The attention logit column at `(e, 0)`: the specification's logit. -/
private theorem v22_at (x0 : (⟨S50000x128, .f32⟩ : BufTy).Contents (Elt Ideal))
    (x1 : (⟨S2x640000, .i32⟩ : BufTy).Contents (Elt Ideal)) (x2 : (⟨S640000, .i32⟩ : BufTy).Contents (Elt Ideal))
    (x3 : (⟨S200x128, .f32⟩ : BufTy).Contents (Elt Ideal)) (x5 : (⟨S1x128, .f32⟩ : BufTy).Contents (Elt Ideal))
    (e : Fin 640000) :
    val_main_v22 (F := Ideal) x0 x1 x2 x3 x5 (ix2 e (0 : Fin 1)) = logit x0 x1 x2 x3 x5 e := by
  rw [val_main_v22_apply]
  refine Finset.sum_congr rfl fun d _ => ?_
  have hl : lidx_main_v22 (ix2 e (0 : Fin 1)) d = ix2 e d := by
    funext a
    match a with
    | ⟨0, _⟩ => rfl
    | ⟨1, _⟩ => rfl
  have hr : idx_main_v21 (ridx_main_v22 (ix2 e (0 : Fin 1)) d) = ix2 (0 : Fin 1) d := by
    funext a
    match a with
    | ⟨0, _⟩ => rfl
    | ⟨1, _⟩ => rfl
  rw [val_main_v21_apply, hl, hr, val_main_v20_apply, v12_at, v19_at]
  rfl

/-- The attention weight at `(e, j)`: the logistic of the logit, the same along the feature axis. -/
private theorem v36_at (x0 : (⟨S50000x128, .f32⟩ : BufTy).Contents (Elt Ideal))
    (x1 : (⟨S2x640000, .i32⟩ : BufTy).Contents (Elt Ideal)) (x2 : (⟨S640000, .i32⟩ : BufTy).Contents (Elt Ideal))
    (x3 : (⟨S200x128, .f32⟩ : BufTy).Contents (Elt Ideal)) (x5 : (⟨S1x128, .f32⟩ : BufTy).Contents (Elt Ideal))
    (e : Fin 640000) (j : Fin 128) :
    val_main_v36 (F := Ideal) x0 x1 x2 x3 x5 (ix2 e j) = Ideal.logistic (logit x0 x1 x2 x3 x5 e) := by
  have hi : idx_main_v36 (ix2 e j) = ix2 e (0 : Fin 1) := by
    funext a
    match a with
    | ⟨0, _⟩ => rfl
    | ⟨1, _⟩ => rfl
  rw [val_main_v36_apply, hi, val_main_v28_apply, val_main_v27_apply, val_main_v26_apply, val_main_v25_apply,
    val_main_v24_apply, val_main_v23_apply, val_main_cst_apply, val_main_cst_3_apply, v22_at]
  show FloatOps.hostDivf (Ideal.ofBits .f32 0x3F800000#32)
    (FloatOps.addf (Ideal.ofBits .f32 0x3F800000#32)
      (FloatOps.hostUnary .exp (FloatOps.hostNegf (logit x0 x1 x2 x3 x5 e)))) = _
  rw [ofBits_one]
  rfl

/-- The reference's per-edge messages (its array before the scatter) are `msg` of its arguments. -/
theorem ref_msg_eq (x0 : (⟨S50000x128, .f32⟩ : BufTy).Contents (Elt Ideal)) (x1 : (⟨S2x640000, .i32⟩ : BufTy).Contents (Elt Ideal))
    (x2 : (⟨S640000, .i32⟩ : BufTy).Contents (Elt Ideal)) (x3 : (⟨S200x128, .f32⟩ : BufTy).Contents (Elt Ideal))
    (x4 : (⟨S128x128, .f32⟩ : BufTy).Contents (Elt Ideal)) (x5 : (⟨S1x128, .f32⟩ : BufTy).Contents (Elt Ideal)) :
    val_main_v37 (F := Ideal) x0 x1 x2 x3 x4 x5 = msg x0 x1 x2 x3 x4 x5 := by
  funext i
  obtain ⟨e, j, rfl⟩ : ∃ (e : Fin 640000) (j : Fin 128), i = ix2 e j := ⟨i 0, i 1, eq_ix2 i⟩
  rw [val_main_v37_apply, v35_at, v36_at, msg_apply]
  rfl

end Cert.RelGcn

end
-- ==== Proof.LibRowCasts.lean ====
/-
  Four layout operations read at an index.

  * A rank-3 array `[a, b, c]` cast to `[n, c]` with `n = a · b` merges its two leading axes: row
    `p · b + q` of the matrix is row `(p, q)` of the array; and the cast back splits them.
  * A vector `[a]` cast to the column `[a, 1]` (what a sum with kept dimensions produces).
  * A column `[a, 1]` broadcast to `[a, b]`: every lane of row `i` is the column's entry `i`.
-/
import Idealize.ShloMosaic.Lib.Pipeline.Value
import Idealize.ShloMosaic.Lib.ValueIdx

namespace Idealize.ShloMosaic.RowCasts

open Idealize.ShloMosaic Idealize.ShloMosaic.ValueIdx

variable {α : Type}

/-- `[a, b, c]` cast to `[n, c]`, read at row `r = p · b + q` and lane `d`: the array at `(p, q, d)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- `[n, c]` cast to `[a, b, c]`, read at `(p, q, d)`: the matrix at row `r = p · b + q`, lane `d`. -/
theorem shapeCast_split_apply {a b c n : ℕ} (y : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ y h (ix3 p q d) = y (ix2 r d) :=
  shapeCast_apply y h _ _ (by
    rw [Shape.rowMajor_val_three, Shape.rowMajor_val_two]
    show r.val * c + d.val = (p.val * b + q.val) * c + d.val
    rw [hr])

/-- A vector cast to a column reads, at `(i, u)`, the vector at `i`. -/
theorem shapeCast_column_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt
    omega)

/-- A column broadcast over the lanes reads, at `(i, j)`, the column at `(i, 0)`. -/
theorem broadcastTo_column_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.RowCasts
-- ==== Proof.KPay.lean ====
/-
  What the kernel body stores, at one element of its block: the product of the projected source row and the
  logistic of the attention logit, the relation's embedding looked up by a one-hot contraction.
-/
import proofs.«409175_j2662879724148_2_alg».proof.Proof.Gen.KernelIdeal.Skeleton
import proofs.«409175_j2662879724148_2_alg».proof.Proof.LibRowCasts
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.RelGcn

open Idealize.ShloMosaic Idealize.ShloMosaic.ValueIdx Cert.KernelIdeal Cert.KernelIdeal.Gen

/-- One entry of the one-hot matrix: `1` where the row number is the type word, else `0`. -/
def hot (r : Fin 208) (w : BitVec 32) : EReal :=
  ((((IntOp.cmpi .eq (BitVec.ofNat 32 r.val) w).setWidth 32).toInt : ℝ) : EReal)

/-- On the row the word names the entry is `1`: the comparison's bit is set, and widened it is the integer one. -/
private theorem hot_self (n : Fin 208) : hot n (BitVec.ofNat 32 n.val) = 1 := by
  unfold hot
  rw [StableHlo.Predicate.cmpi_eq_iff.mpr rfl]
  simp

/-- On every other row the entry is `0`: two row numbers below `208` have different 32-bit words. -/
private theorem hot_ne (r n : Fin 208) (h : r ≠ n) : hot r (BitVec.ofNat 32 n.val) = 0 := by
  unfold hot
  have hne : ¬ IntOp.cmpi .eq (BitVec.ofNat 32 r.val) (BitVec.ofNat 32 n.val) = 1#1 := by
    rw [StableHlo.Predicate.cmpi_eq_iff]
    intro he
    apply h
    apply Fin.ext
    have := congrArg BitVec.toNat he
    simp only [BitVec.toNat_ofNat] at this
    have h1 := r.isLt
    have h2 := n.isLt
    omega
  rw [eq_zero_of_ne_one hne]
  simp

/-- A one-hot contraction picks the row the word names. -/
theorem hot_sum (w : BitVec 32) (n : Fin 208) (hw : w = BitVec.ofNat 32 n.val) (f : Fin 208 → EReal) :
    ∑ r : Fin 208, hot r w * f r = f n := by
  subst hw
  rw [Finset.sum_eq_single n]
  · rw [hot_self, one_mul]
  · intro r _ hr
    rw [hot_ne r n hr, zero_mul]
  · intro h
    exact absurd (Finset.mem_univ n) h

/-! ## The first product: a row of the block against a column of the projection

The dot contracts axis 1 of the left operand with axis 0 of the right one, so at output `(p, q)` and contraction
position `k` the operands are read at `(p, k)` and `(k, q)`. -/

private abbrev D1 := dot_S6400x128_S128x128_S6400x128_1_0_0_1_n_n

private theorem d1_lhs_0 (i : S6400x128.Idx) (c : D1.contr.Idx) : (D1.lhsIdx i c 0).val = (i 0).val := by
  unfold DotDims.lhsIdx
  rw [dif_neg (show ¬(0 : Fin S6400x128.rank) ∈ D1.lhsBatch by decide), dif_pos (show (0 : Fin S6400x128.rank) ∈ D1.lhsNonContracting by decide)]
  rfl
private theorem d1_lhs_1 (i : S6400x128.Idx) (c : D1.contr.Idx) : (D1.lhsIdx i c 1).val = (c ⟨0, by decide⟩).val :=
  D1.lhsIdx_val_of_single rfl i c
private theorem d1_rhs_0 (i : S6400x128.Idx) (c : D1.contr.Idx) : (D1.rhsIdx i c 0).val = (c ⟨0, by decide⟩).val :=
  D1.rhsIdx_val_of_single rfl i c
private theorem d1_rhs_1 (i : S6400x128.Idx) (c : D1.contr.Idx) : (D1.rhsIdx i c 1).val = (i 1).val := by
  unfold DotDims.rhsIdx
  rw [dif_neg (show ¬(1 : Fin S128x128.rank) ∈ D1.rhsBatch by decide), dif_pos (show (1 : Fin S128x128.rank) ∈ D1.rhsNonContracting by decide)]
  rfl

/-- Into the zero accumulator the first product at `(p, q)` is `∑ k, x (p, k) · y (k, q)`. -/
private theorem mm1_apply {φ₁ φ₂ : FTy} (x : FVec Ideal S6400x128 φ₁) (y : FVec Ideal S128x128 φ₂) (p : Fin 6400) (q : Fin 128) :
    matmul D1 none x y (constant S6400x128 .f32 0x00000000#32) (ix2 p q) = ∑ k : Fin 128, x (ix2 p k) * y (ix2 k q) := by
  refine (Ideal.matmul_constant_zero_apply D1 none x y (ix2 p q)).trans ?_
  rw [← Equiv.sum_comp (contrEquiv1 D1 128 rfl rfl).symm]
  refine Finset.sum_congr rfl fun k _ => ?_
  have hk := contrEquiv1_symm_val D1 128 rfl rfl k
  have el : D1.lhsIdx (ix2 p q) ((contrEquiv1 D1 128 rfl rfl).symm k) = ix2 p k := funext fun a => Fin.ext (by
    match a with
    | ⟨0, _⟩ => exact d1_lhs_0 _ _
    | ⟨1, _⟩ => exact (d1_lhs_1 _ _).trans hk)
  have er : D1.rhsIdx (ix2 p q) ((contrEquiv1 D1 128 rfl rfl).symm k) = ix2 k q := funext fun a => Fin.ext (by
    match a with
    | ⟨0, _⟩ => exact (d1_rhs_0 _ _).trans hk
    | ⟨1, _⟩ => exact d1_rhs_1 _ _)
  rw [el, er]

/-! ## The second product: the one-hot matrix, transposed, against the relation table

The dot contracts axis 0 of BOTH operands, so at output `(p, q)` and contraction position `k` the operands are
read at `(k, p)` and `(k, q)`. -/

private abbrev D2 := dot_S208x6400_S208x128_S6400x128_0_0_1_1_n_n

private theorem d2_lhs_0 (i : S6400x128.Idx) (c : D2.contr.Idx) : (D2.lhsIdx i c 0).val = (c ⟨0, by decide⟩).val :=
  D2.lhsIdx_val_of_single rfl i c
private theorem d2_lhs_1 (i : S6400x128.Idx) (c : D2.contr.Idx) : (D2.lhsIdx i c 1).val = (i 0).val := by
  unfold DotDims.lhsIdx
  rw [dif_neg (show ¬(1 : Fin S208x6400.rank) ∈ D2.lhsBatch by decide), dif_pos (show (1 : Fin S208x6400.rank) ∈ D2.lhsNonContracting by decide)]
  rfl
private theorem d2_rhs_0 (i : S6400x128.Idx) (c : D2.contr.Idx) : (D2.rhsIdx i c 0).val = (c ⟨0, by decide⟩).val :=
  D2.rhsIdx_val_of_single rfl i c
private theorem d2_rhs_1 (i : S6400x128.Idx) (c : D2.contr.Idx) : (D2.rhsIdx i c 1).val = (i 1).val := by
  unfold DotDims.rhsIdx
  rw [dif_neg (show ¬(1 : Fin S208x128.rank) ∈ D2.rhsBatch by decide), dif_pos (show (1 : Fin S208x128.rank) ∈ D2.rhsNonContracting by decide)]
  rfl

/-- Into the zero accumulator the second product at `(p, q)` is `∑ k, x (k, p) · y (k, q)`. -/
private theorem mm2_apply {φ₁ φ₂ : FTy} (x : FVec Ideal S208x6400 φ₁) (y : FVec Ideal S208x128 φ₂) (p : Fin 6400) (q : Fin 128) :
    matmul D2 none x y (constant S6400x128 .f32 0x00000000#32) (ix2 p q) = ∑ k : Fin 208, x (ix2 k p) * y (ix2 k q) := by
  refine (Ideal.matmul_constant_zero_apply D2 none x y (ix2 p q)).trans ?_
  rw [← Equiv.sum_comp (contrEquiv1 D2 208 rfl rfl).symm]
  refine Finset.sum_congr rfl fun k _ => ?_
  have hk := contrEquiv1_symm_val D2 208 rfl rfl k
  have el : D2.lhsIdx (ix2 p q) ((contrEquiv1 D2 208 rfl rfl).symm k) = ix2 k p := funext fun a => Fin.ext (by
    match a with
    | ⟨0, _⟩ => exact (d2_lhs_0 _ _).trans hk
    | ⟨1, _⟩ => exact d2_lhs_1 _ _)
  have er : D2.rhsIdx (ix2 p q) ((contrEquiv1 D2 208 rfl rfl).symm k) = ix2 k q := funext fun a => Fin.ext (by
    match a with
    | ⟨0, _⟩ => exact (d2_rhs_0 _ _).trans hk
    | ⟨1, _⟩ => exact d2_rhs_1 _ _)
  rw [el, er]

/-! ## The layout operations at explicit coordinates -/

/-- The row-number array at `(r, p)` is the word of `r`. -/
private theorem iota_rp (r : Fin 208) (p : Fin 6400) :
    iota .tc S208x6400 32 [0] Facts₀.iota_S208x6400_d0_w32 (ix2 r p) = BitVec.ofNat 32 r.val :=
  iota_single_apply .tc S208x6400 32 0 Facts₀.iota_S208x6400_d0_w32 (ix2 r p)

/-- The type row laid under every row number: at `(r, p)` it is the type word of column `p`. -/
private theorem etr_bcast (v : IVec S1x6400 32) (r : Fin 208) (p : Fin 6400) :
    broadcastTo S208x6400 v Facts₀.broadcasts_S1x6400_S208x6400 (ix2 r p) = v (ix2 (0 : Fin 1) p) :=
  broadcastTo_1b_ab_apply v Facts₀.broadcasts_S1x6400_S208x6400 r p

/-- The attention row laid under every row of the block: at `(p, d)` it is the row's lane `d`. -/
private theorem wa_bcast (v : FVec Ideal S1x128 .f32) (p : Fin 6400) (d : Fin 128) :
    broadcastTo S6400x128 v Facts₀.broadcasts_S1x128_S6400x128 (ix2 p d) = v (ix2 (0 : Fin 1) d) :=
  broadcastTo_1b_ab_apply v Facts₀.broadcasts_S1x128_S6400x128 p d

/-- The lane sum of a block at row `p` is the sum of that row's entries. -/
private theorem lane_sum (x : FVec Ideal S6400x128 .f32) (p : Fin 6400) :
    multiReduction .add [1] S6400 x 0x00000000#32 Facts₀.reduces_S6400x128_S6400 (.inl rfl) rfl (ix1 p)
      = ∑ d : Fin 128, x (ix2 p d) := by
  refine (Ideal.multiReduction_add_single x _ Facts₀.reduces_S6400x128_S6400 (.inl rfl) rfl (ix1 p)).trans ?_
  refine Finset.sum_congr rfl fun d _ => congrArg x ?_
  funext a
  match a with
  | ⟨0, _⟩ => exact Fin.ext rfl
  | ⟨1, _⟩ => exact Fin.ext rfl

/-- A vector made a column, passed through the logistic lane by lane and spread over the lanes: at `(p, q)` it is
    the logistic of the vector's entry `p`. -/
private theorem col_bcast (x : FVec Ideal S6400 .f32) (p : Fin 6400) (q : Fin 128) :
    broadcastTo S6400x128 (logistic (shapeCast S6400x1 x Facts₀.shapeCasts_S6400_S6400x1)) Facts₀.broadcasts_S6400x1_S6400x128 (ix2 p q)
      = Ideal.logistic (x (ix1 p)) := by
  refine (RowCasts.broadcastTo_column_apply _ Facts₀.broadcasts_S6400x1_S6400x128 p q).trans ?_
  show Ideal.logistic (shapeCast S6400x1 x Facts₀.shapeCasts_S6400_S6400x1 (ix2 p (0 : Fin 1))) = _
  rw [RowCasts.shapeCast_column_apply x Facts₀.shapeCasts_S6400_S6400x1 p 0]

/-- The one-hot matrix the body builds — row numbers compared with the type row, the bit widened and converted —
    at `(r, p)` is `hot r` of the type word of column `p`. -/
private theorem onehot_apply (v : IVec S1x6400 32) (r : Fin 208) (p : Fin 6400) :
    (truncf .bf16 (sitofp .f32 (extui 32 (cmpi .eq (iota .tc S208x6400 32 [0] Facts₀.iota_S208x6400_d0_w32)
        (broadcastTo S208x6400 v Facts₀.broadcasts_S1x6400_S208x6400)) Facts₀.natLt_1_32) : FVec Ideal S208x6400 .f32)
        Facts₀.bitsLt_bf16_f32 : FVec Ideal S208x6400 .bf16) (ix2 r p) = hot r (v (ix2 (0 : Fin 1) p)) := by
  show ((((IntOp.cmpi .eq (iota .tc S208x6400 32 [0] Facts₀.iota_S208x6400_d0_w32 (ix2 r p))
      (broadcastTo S208x6400 v Facts₀.broadcasts_S1x6400_S208x6400 (ix2 r p))).setWidth 32).toInt : ℝ) : EReal) = _
  rw [iota_rp, etr_bcast]
  rfl

/-- THE PAYLOAD AT `(p, q)`. -/
theorem pay_apply (hsv : Vec Ideal S6400x128 .f32) (wlt : Vec Ideal S128x128 .f32) (etr : Vec Ideal S1x6400 .i32)
    (relp : Vec Ideal S208x128 .f32) (wa : Vec Ideal S1x128 .f32) (p : Fin 6400) (q : Fin 128) :
    k0_pay1 (F := Ideal) hsv wlt etr relp wa (ix2 p q)
      = (∑ k : Fin 128, hsv (ix2 p k) * wlt (ix2 k q))
        * Ideal.logistic (∑ d : Fin 128,
            (hsv (ix2 p d) + ∑ r : Fin 208, hot r (etr (ix2 (0 : Fin 1) p)) * relp (ix2 r d)) * wa (ix2 (0 : Fin 1) d)) := by
  simp only [k0_pay1, shapeCast_self]
  rw [mulf_apply, mm1_apply, col_bcast, lane_sum]
  refine congrArg₂ (· * ·) rfl (congrArg Ideal.logistic (Finset.sum_congr rfl fun d _ => ?_))
  rw [mulf_apply, addf_apply, wa_bcast, mm2_apply]
  refine congrArg₂ (· * ·) (congrArg₂ (· + ·) rfl (Finset.sum_congr rfl fun r _ => ?_)) rfl
  rw [onehot_apply]
  rfl

end Cert.RelGcn

end
-- ==== Proof.KPoint.lean ====
/-
  One element of a block is the specification's message: the payload at `(p, q)`, once each input block is known
  as rows of the layer's arguments, is `msgAt` at the edge the row stands for. The one-hot contraction against the
  padded relation table picks the relation's row because every type word is a row number below 200.
-/
import proofs.«409175_j2662879724148_2_alg».proof.Proof.KPay
import proofs.«409175_j2662879724148_2_alg».proof.Proof.Spec

noncomputable section

open scoped BigOperators

namespace Cert.RelGcn

open Idealize.ShloMosaic Idealize.ShloMosaic.ValueIdx Cert.KernelIdeal Cert.KernelIdeal.Gen

/-- A word in `[0, 200)` read signed has its sign bit clear: its signed and unsigned values agree, below 200. -/
private theorem toNat_of_range (w : BitVec 32) (h0 : 0 ≤ w.toInt) (h1 : w.toInt < 200) :
    w.toInt = (w.toNat : Int) ∧ w.toNat < 200 := by
  have hlt := w.isLt
  rw [BitVec.toInt_eq_toNat_cond] at h0 h1 ⊢
  split_ifs at h0 h1 ⊢ with hc <;> omega

/-- A non-negative index is its own wrap: the "negative" bit is clear, so the select keeps the word. -/
private theorem wrapIdx_of_nonneg (n w : BitVec 32) (h0 : 0 ≤ w.toInt) : wrapIdx n w = w := by
  unfold wrapIdx
  have hb : IntOp.cmpi .slt w 0#32 = 0#1 := by
    apply ValueIdx.eq_zero_of_ne_one
    rw [IntOp.cmpi_slt, show (0#32 : BitVec 32).toInt = 0 from by decide]
    omega
  rw [hb]
  exact ValueIdx.select_zero _ _

/-- THE PAYLOAD IS THE MESSAGE: `row p` is the edge that row `p` of the block stands for. -/
theorem point_eq (x : FVec Ideal ⟨2, ![50000, 128]⟩ .f32) (ei : IVec ⟨2, ![2, 640000]⟩ 32) (et : IVec ⟨1, ![640000]⟩ 32)
    (rel : FVec Ideal ⟨2, ![200, 128]⟩ .f32) (W : FVec Ideal ⟨2, ![128, 128]⟩ .f32) (a : FVec Ideal ⟨2, ![1, 128]⟩ .f32)
    (ht : ∀ e : Fin 640000, 0 ≤ (et (ix1 e)).toInt ∧ (et (ix1 e)).toInt < 200)
    (hsv : Vec Ideal S6400x128 .f32) (wlt : Vec Ideal S128x128 .f32) (etr : Vec Ideal S1x6400 .i32)
    (relp : Vec Ideal S208x128 .f32) (wav : Vec Ideal S1x128 .f32) (row : Fin 6400 → Fin 640000)
    (h0 : ∀ (p : Fin 6400) (k : Fin 128), hsv (ix2 p k) = x (ix2 (srcRow ei (row p)) k))
    (h1 : ∀ p : Fin 6400, etr (ix2 (0 : Fin 1) p) = et (ix1 (row p)))
    (h2 : ∀ (r : Fin 208) (d : Fin 128), relp (ix2 r d)
      = if h : r.val < 200 then rel (ix2 (⟨r.val, h⟩ : Fin 200) d) else (0 : EReal))
    (h3 : ∀ k j : Fin 128, wlt (ix2 k j) = W (ix2 j k))
    (h4 : ∀ d : Fin 128, wav (ix2 (0 : Fin 1) d) = a (ix2 (0 : Fin 1) d))
    (p : Fin 6400) (q : Fin 128) :
    k0_pay1 (F := Ideal) hsv wlt etr relp wav (ix2 p q) = msgAt x ei et rel W a (row p) q := by
  obtain ⟨ht0, ht1⟩ := ht (row p)
  obtain ⟨hti, htn⟩ := toNat_of_range _ ht0 ht1
  -- the type word of row `p` is the word of a row number below 200 (so below 208, the padded table's height)
  let n : Fin 208 := ⟨(et (ix1 (row p))).toNat, by omega⟩
  have hw : etr (ix2 (0 : Fin 1) p) = BitVec.ofNat 32 n.val := by
    rw [h1]
    apply BitVec.eq_of_toNat_eq
    rw [BitVec.toNat_ofNat]
    show (et (ix1 (row p))).toNat = (et (ix1 (row p))).toNat % 2 ^ 32
    omega
  -- that row number is the row the specification reads: the wrap keeps a non-negative word, the clamp one below 200
  have hrow : (⟨n.val, htn⟩ : Fin 200) = relRow et (row p) := by
    apply Fin.ext
    show (et (ix1 (row p))).toNat = min (wrapIdx 200#32 (et (ix1 (row p)))).toInt.toNat 199
    rw [wrapIdx_of_nonneg _ _ ht0]
    omega
  -- the one-hot contraction against the padded table picks that row of the relation table
  have hs : ∀ d : Fin 128, ∑ r : Fin 208, hot r (etr (ix2 (0 : Fin 1) p)) * relp (ix2 r d)
      = rel (ix2 (relRow et (row p)) d) := fun d => by
    rw [hot_sum _ n hw (fun r => relp (ix2 r d)), h2, dif_pos htn, hrow]
  rw [pay_apply]
  unfold msgAt proj logit
  refine congrArg₂ (· * ·) (Finset.sum_congr rfl fun k _ => by rw [h0, h3])
    (congrArg Ideal.logistic (Finset.sum_congr rfl fun d _ => ?_))
  rw [h0, h4, hs d]

end Cert.RelGcn

end
-- ==== Proof.KHost.lean ====
/-
  The arrays the region finds, read at an element: what the host operations before the kernel leave in the buffers
  its windows stage — the gathered source rows, the type words as a row, the zero-padded relation table, the
  transposed linear map.
-/
import proofs.«409175_j2662879724148_2_alg».proof.Proof.Gen.KernelIdeal.Frame
import proofs.«409175_j2662879724148_2_alg».proof.Proof.Spec
import proofs.«409175_j2662879724148_2_alg».proof.Proof.LibRowGather
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.KernelVsHost

noncomputable section

namespace Cert.RelGcn

open Idealize.ShloMosaic Idealize.ShloMosaic.TcCoe Idealize.SL.Sem Idealize.ShloMosaic.ValueIdx Cert.KernelIdeal Cert.KernelIdeal.Gen
open Idealize.ShloMosaic.StableHlo.Predicate (ofBool_eq_one_iff)

variable (m : (ℓ : Loc nD τ sig) → Buf (Elt Ideal) ℓ)

/-! ## Words: a wrapped index is inside its table

`jnp.take` reads a source word `s` numpy style: `w = s + 50000` when `s < 0`, else `w = s`; then it tests
`0 ≤ w ≤ 49999` and fills with NaN where the test fails. For `-50000 ≤ s < 50000` the sum does not overflow and
`w` lands in `[0, 49999]`, so the test holds. -/

/-- A word in `[-50000, 50000)` wraps into `[0, 49999]`. -/
private theorem wrap_range (s : BitVec 32) (h0 : -50000 ≤ s.toInt) (h1 : s.toInt < 50000) :
    0 ≤ (wrapIdx 50000#32 s).toInt ∧ (wrapIdx 50000#32 s).toInt ≤ 49999 := by
  unfold wrapIdx
  have hz : (0#32 : BitVec 32).toInt = 0 := by decide
  by_cases hneg : s.toInt < 0
  · -- a negative word: the comparison bit is 1, and adding the extent stays inside the signed range
    have hc : IntOp.cmpi .slt s 0#32 = 1#1 := by
      unfold IntOp.cmpi
      rw [ofBool_eq_one_iff]
      show decide (s.toInt < (0#32 : BitVec 32).toInt) = true
      rw [hz]; exact decide_eq_true hneg
    rw [hc, ValueIdx.select_one]
    have hn : (50000#32 : BitVec 32).toInt = 50000 := by decide
    unfold IntOp.addi
    rw [BitVec.toInt_add, hn, Int.bmod_def]
    split <;> omega
  · -- a non-negative word is kept
    have hc : IntOp.cmpi .slt s 0#32 = 0#1 := by
      unfold IntOp.cmpi
      show BitVec.ofBool (decide (s.toInt < (0#32 : BitVec 32).toInt)) = 0#1
      rw [hz, decide_eq_false hneg]; rfl
    rw [hc, ValueIdx.select_zero]
    omega

/-- A word that reads non-negative compares `≥ 0`. -/
private theorem sge_zero_of (w : BitVec 32) (h : 0 ≤ w.toInt) : IntOp.cmpi .sge w 0#32 = 1#1 := by
  unfold IntOp.cmpi
  rw [ofBool_eq_one_iff]
  show decide ((0#32 : BitVec 32).toInt ≤ w.toInt) = true
  have hz : (0#32 : BitVec 32).toInt = 0 := by decide
  rw [hz]; exact decide_eq_true h

/-- A word that reads at most 49999 compares `≤ 49999`. -/
private theorem sle_max_of (w : BitVec 32) (h : w.toInt ≤ 49999) : IntOp.cmpi .sle w 49999#32 = 1#1 := by
  unfold IntOp.cmpi
  rw [ofBool_eq_one_iff]
  show decide (w.toInt ≤ (49999#32 : BitVec 32).toInt) = true
  have hz : (49999#32 : BitVec 32).toInt = 49999 := by decide
  rw [hz]; exact decide_eq_true h

/-- A left fold by `and`, from 1, over bits that are all 1, is 1. -/
private theorem foldl_andi_ones {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons, hf a, h]
    exact foldl_andi_ones f hf l _ (by decide)

/-! ## The take's index column and its mask, as functions of the edge list -/

/-- Row 0 of the edge list as a vector: the source words. -/
private def srcWords (ei : IVec S2x640000 32) : IVec S640000 32 :=
  shapeCast S640000 (extractStridedSlice S1x640000 ![0, 0] ei slices_S2x640000_S1x640000_0_0) shapeCasts_S1x640000_S640000

/-- The source words wrapped numpy style, as a column of start indices. -/
private def wrapCol (ei : IVec S2x640000 32) : IVec S640000x1 32 :=
  broadcastInDim S640000x1 ![0] bcast_S640000_S640000x1_0
    (select (cmpi .slt (srcWords ei) (broadcastInDim S640000 ![] bcast_S_S640000 (constantI S_ 32 0#32)))
      (addi (srcWords ei) (broadcastInDim S640000 ![] bcast_S_S640000 (constantI S_ 32 50000#32))) (srcWords ei))

/-- One bit per edge: the wrapped word lies in the table (the `and` of the two comparisons, reduced over the
    column's unit axis). -/
private def inTable (ei : IVec S2x640000 32) : IVec S640000 1 :=
  Host.reduce IntOp.andi
    (andi (cmpi .sge (wrapCol ei) (broadcastInDim S640000x1 ![] bcast_S_S640000x1 (constantI S_ 32 0#32)))
      (cmpi .sle (wrapCol ei) (broadcastInDim S640000x1 ![0, 1] bcast_S1x1_S640000x1_0_1
        (broadcastInDim S1x1 ![1] bcast_S1_S1x1_1 (constantI S1 32 49999#32)))))
    (constantI S_ 1 1#1) reducesTo_S640000x1_S640000_d1 h_S_

/-- Entry `e` of the source words is the edge list's at `(0, e)`. -/
private theorem srcWords_apply (ei : IVec S2x640000 32) (e : Fin 640000) :
    srcWords ei (ix1 e) = ei (ix2 (0 : Fin 2) e) := by
  unfold srcWords
  refine (shapeCast_apply _ shapeCasts_S1x640000_S640000 (ix1 e) (ix2 (0 : Fin 1) e)
    (by rw [Shape.rowMajor_val_two, Shape.rowMajor_val_one]; show 0 * 640000 + e.val = e.val; omega)).trans ?_
  exact extractStridedSlice_apply ![0, 0] ei slices_S2x640000_S1x640000_0_0 (ix2 (0 : Fin 1) e) (ix2 (0 : Fin 2) e)
    (fun a => match a with
      | ⟨0, _⟩ => by show (0 : Nat) = 0 + 0; omega
      | ⟨1, _⟩ => by show e.val = 0 + e.val; omega)

/-- Entry `(e, 0)` of the start-index column is the source word of edge `e`, wrapped. -/
private theorem wrapCol_apply (ei : IVec S2x640000 32) (e : Fin 640000) :
    wrapCol ei (ix2 e (0 : Fin 1)) = wrapIdx 50000#32 (ei (ix2 (0 : Fin 2) e)) := by
  unfold wrapCol
  refine (broadcastInDim_apply ![0] bcast_S640000_S640000x1_0 _ (ix2 e (0 : Fin 1)) (ix1 e) (fun a => match a with
    | ⟨0, _⟩ => by show e.val = if (640000 : Nat) = 1 then 0 else e.val; rw [if_neg (by decide)])).trans ?_
  have h0 : broadcastInDim S640000 ![] bcast_S_S640000 (constantI S_ 32 0#32) (ix1 e) = 0#32 :=
    broadcastInDim_apply _ bcast_S_S640000 (constantI S_ 32 0#32) (ix1 e) ix0 (fun a => a.elim0)
  have h5 : broadcastInDim S640000 ![] bcast_S_S640000 (constantI S_ 32 50000#32) (ix1 e) = 50000#32 :=
    broadcastInDim_apply _ bcast_S_S640000 (constantI S_ 32 50000#32) (ix1 e) ix0 (fun a => a.elim0)
  show Scalar.select (IntOp.cmpi .slt (srcWords ei (ix1 e)) (broadcastInDim S640000 ![] bcast_S_S640000 (constantI S_ 32 0#32) (ix1 e)))
      (IntOp.addi (srcWords ei (ix1 e)) (broadcastInDim S640000 ![] bcast_S_S640000 (constantI S_ 32 50000#32) (ix1 e)))
      (srcWords ei (ix1 e)) = _
  rw [h0, h5, srcWords_apply]
  rfl

/-- Where every source word is in `[-50000, 50000)`, every bit of the range test is 1. -/
private theorem rangeBit_one (ei : IVec S2x640000 32)
    (hs : ∀ e : Fin 640000, -50000 ≤ (ei (ix2 (0 : Fin 2) e)).toInt ∧ (ei (ix2 (0 : Fin 2) e)).toInt < 50000)
    (i : S640000x1.Idx) :
    (andi (cmpi .sge (wrapCol ei) (broadcastInDim S640000x1 ![] bcast_S_S640000x1 (constantI S_ 32 0#32)))
      (cmpi .sle (wrapCol ei) (broadcastInDim S640000x1 ![0, 1] bcast_S1x1_S640000x1_0_1
        (broadcastInDim S1x1 ![1] bcast_S1_S1x1_1 (constantI S1 32 49999#32))))) i = 1#1 := by
  obtain ⟨a, b, rfl⟩ : ∃ (a : Fin 640000) (b : Fin 1), i = ix2 a b := ⟨_, _, eq_ix2 i⟩
  obtain rfl : b = 0 := Subsingleton.elim _ _
  -- the two bounds the word is compared with, at this entry
  have hZ : broadcastInDim S640000x1 ![] bcast_S_S640000x1 (constantI S_ 32 0#32) (ix2 a (0 : Fin 1)) = 0#32 :=
    broadcastInDim_apply _ bcast_S_S640000x1 (constantI S_ 32 0#32) (ix2 a (0 : Fin 1)) ix0 (fun a => a.elim0)
  have hM : broadcastInDim S640000x1 ![0, 1] bcast_S1x1_S640000x1_0_1
      (broadcastInDim S1x1 ![1] bcast_S1_S1x1_1 (constantI S1 32 49999#32)) (ix2 a (0 : Fin 1)) = 49999#32 := by
    refine (broadcastInDim_apply ![0, 1] bcast_S1x1_S640000x1_0_1 _ (ix2 a (0 : Fin 1)) (ix2 (0 : Fin 1) (0 : Fin 1))
      (fun b => match b with
        | ⟨0, _⟩ => rfl
        | ⟨1, _⟩ => rfl)).trans ?_
    exact broadcastInDim_apply ![1] bcast_S1_S1x1_1 (constantI S1 32 49999#32) (ix2 (0 : Fin 1) (0 : Fin 1)) (ix1 (0 : Fin 1))
      (fun b => match b with
        | ⟨0, _⟩ => rfl)
  obtain ⟨hlo, hhi⟩ := wrap_range _ (hs a).1 (hs a).2
  show IntOp.andi (IntOp.cmpi .sge (wrapCol ei (ix2 a (0 : Fin 1))) (broadcastInDim S640000x1 ![] bcast_S_S640000x1 (constantI S_ 32 0#32) (ix2 a (0 : Fin 1))))
      (IntOp.cmpi .sle (wrapCol ei (ix2 a (0 : Fin 1))) (broadcastInDim S640000x1 ![0, 1] bcast_S1x1_S640000x1_0_1
        (broadcastInDim S1x1 ![1] bcast_S1_S1x1_1 (constantI S1 32 49999#32)) (ix2 a (0 : Fin 1)))) = 1#1
  rw [hZ, hM, wrapCol_apply, sge_zero_of _ hlo, sle_max_of _ hhi]
  decide

/-- So the mask is 1 at every edge: an `and` over bits that are all 1. -/
private theorem inTable_one (ei : IVec S2x640000 32)
    (hs : ∀ e : Fin 640000, -50000 ≤ (ei (ix2 (0 : Fin 2) e)).toInt ∧ (ei (ix2 (0 : Fin 2) e)).toInt < 50000)
    (j : S640000.Idx) : inTable ei j = 1#1 := by
  unfold inTable
  rw [Host.reduce_eq_foldl]
  exact foldl_andi_ones _ (rangeBit_one ei hs) _ _ rfl

/-! ## The four buffers as terms of the launch contents, and those terms read at an element -/

section HsrcTerm
-- the reduction enters only as a function of its operands: the two sides below agree operand by operand
attribute [local irreducible] Host.reduce

set_option maxRecDepth 8192 in
set_option maxHeartbeats 2000000 in
/-- What the host operations leave in the gathered-rows buffer: the row gather at the wrapped column, kept where the
    mask is set and NaN elsewhere. -/
private theorem hsrc_term (c : Dev nD) :
    (V m c main_v4 : S640000x128.Idx → EReal)
      = select (broadcastInDim S640000x128 ![0] bcast_S640000_S640000x128_0 (inTable (m ((c.tc : Thread nD τ).loc main_arg1))))
          (Host.gather gather_S50000x128_S640000x1_S640000x128_1_0_n_n_0_1_1128 (m ((c.tc : Thread nD τ).loc main_arg0))
            (wrapCol (m ((c.tc : Thread nD τ).loc main_arg1))))
          (broadcastInDim S640000x128 ![] bcast_S_S640000x128 (constant (F := Ideal) S_ .f32 0x7FC00000#32)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  open Idealize.ShloMosaic.StableHlo in after_results_simp
  rfl

end HsrcTerm

/-- The gathered source rows: where every source word is an index into the node table, row `e` is the node's row. -/
theorem V_hsrc (c : Dev nD)
    (hs : ∀ e : Fin 640000, -50000 ≤ ((m ((c.tc : Thread nD τ).loc main_arg1)) (ix2 (0 : Fin 2) e)).toInt
      ∧ ((m ((c.tc : Thread nD τ).loc main_arg1)) (ix2 (0 : Fin 2) e)).toInt < 50000)
    (e : Fin 640000) (k : Fin 128) :
    (V m c main_v4 : S640000x128.Idx → EReal) (ix2 e k)
      = (m ((c.tc : Thread nD τ).loc main_arg0)) (ix2 (srcRow (m ((c.tc : Thread nD τ).loc main_arg1)) e) k) := by
  rw [hsrc_term m c, select_apply]
  -- the mask bit of edge `e`, laid along the row, is 1
  have hbit : broadcastInDim S640000x128 ![0] bcast_S640000_S640000x128_0
      (inTable (m ((c.tc : Thread nD τ).loc main_arg1))) (ix2 e k) = 1#1 := by
    refine (broadcastInDim_apply ![0] bcast_S640000_S640000x128_0 _ (ix2 e k) (ix1 e) (fun a => match a with
      | ⟨0, _⟩ => by show e.val = if (640000 : Nat) = 1 then 0 else e.val; rw [if_neg (by decide)])).trans ?_
    exact inTable_one _ hs (ix1 e)
  rw [hbit, ValueIdx.select_one]
  -- the gather reads the table's row at the clamped start index, which is the wrapped word's: the source row
  refine (Idealize.ShloMosaic.RowGather.gather_rows_apply (by decide) gather_S50000x128_S640000x1_S640000x128_1_0_n_n_0_1_1128_wf
    (m ((c.tc : Thread nD τ).loc main_arg0)) (wrapCol (m ((c.tc : Thread nD τ).loc main_arg1))) e k).trans ?_
  refine congrArg (fun r : Fin 50000 => (m ((c.tc : Thread nD τ).loc main_arg0)) (ix2 r k)) (Fin.ext ?_)
  show min (wrapCol (m ((c.tc : Thread nD τ).loc main_arg1)) (ix2 e (0 : Fin 1))).toInt.toNat (50000 - 1)
    = min (wrapIdx 50000#32 ((m ((c.tc : Thread nD τ).loc main_arg1)) (ix2 (0 : Fin 2) e))).toInt.toNat 49999
  rw [wrapCol_apply]

/-- The type words laid out as one row. -/
theorem V_etrow (c : Dev nD) (e : Fin 640000) :
    (V m c main_v7 : S1x640000.Idx → BitVec 32) (ix2 (0 : Fin 1) e) = (m ((c.tc : Thread nD τ).loc main_arg2)) (ix1 e) := by
  -- the buffer is the reshape of the type words to one row
  have h : (V m c main_v7 : S1x640000.Idx → BitVec 32)
      = shapeCast S1x640000 (m ((c.tc : Thread nD τ).loc main_arg2)) shapeCasts_S640000_S1x640000 := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  rw [h]
  -- entry (0, e) of the row and entry e of the vector have the same row-major position
  exact shapeCast_apply _ shapeCasts_S640000_S1x640000 (ix2 (0 : Fin 1) e) (ix1 e)
    (by rw [Shape.rowMajor_val_one, Shape.rowMajor_val_two]; show e.val = 0 * 640000 + e.val; omega)

/-- The relation table padded with eight zero rows. -/
theorem V_relpad (c : Dev nD) (r : Fin 208) (d : Fin 128) :
    (V m c main_v6 : S208x128.Idx → EReal) (ix2 r d)
      = if h : r.val < 200 then ((m ((c.tc : Thread nD τ).loc main_arg3)) : S200x128.Idx → EReal) (ix2 (⟨r.val, h⟩ : Fin 200) d)
        else (0 : EReal) := by
  -- the buffer is the table padded at the high end of axis 0 with the integer zero converted
  have h : (V m c main_v6 : S208x128.Idx → EReal)
      = pad S208x128 ![0, 0] ![8, 0] ![0, 0] (m ((c.tc : Thread nD τ).loc main_arg3))
          (sitofp (F := Ideal) .f32 (constantI S_ 32 0#32)) pads_S200x128_S208x128_080_000 h_S_ := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  rw [h]
  by_cases hr : r.val < 200
  · -- a row of the table
    rw [dif_pos hr]
    exact pad_apply_of_inside (s := S200x128) ![0, 0] ![8, 0] ![0, 0] _ _ pads_S200x128_S208x128_080_000 h_S_ (ix2 r d)
      (ix2 (⟨r.val, hr⟩ : Fin 200) d)
      (fun a => match a with
        | ⟨0, _⟩ => by show r.val = 0 + r.val * (0 + 1); omega
        | ⟨1, _⟩ => by show d.val = 0 + d.val * (0 + 1); omega)
  · -- one of the eight padding rows: the padding value, the integer zero converted, which is the float zero
    rw [dif_neg hr]
    refine (pad_apply_of_not_inside (s := S200x128) ![0, 0] ![8, 0] ![0, 0] _ _ pads_S200x128_S208x128_080_000 h_S_ (ix2 r d) (0 : Fin 2)
      ?_).trans ?_
    · show ¬((0 : Nat) ≤ r.val ∧ (r.val - 0) % (0 + 1) = 0 ∧ (r.val - 0) / (0 + 1) < 200)
      omega
    · exact sitofp_zero (φ := .f32)

/-- The linear map transposed. -/
theorem V_wlt (c : Dev nD) (k j : Fin 128) :
    (V m c main_v5 : S128x128.Idx → EReal) (ix2 k j) = (m ((c.tc : Thread nD τ).loc main_arg4)) (ix2 j k) := by
  -- the buffer is the transpose of the linear map
  have h : (V m c main_v5 : S128x128.Idx → EReal)
      = transpose S128x128 [1, 0] (m ((c.tc : Thread nD τ).loc main_arg4)) transposes_S128x128_S128x128_1_0 := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
  rw [h]
  exact transpose_apply [1, 0] _ transposes_S128x128_S128x128_1_0 (ix2 k j) (ix2 j k) (fun b => match b with
    | ⟨0, _⟩ => rfl
    | ⟨1, _⟩ => rfl)

end Cert.RelGcn

end
-- ==== Proof.KBlocks.lean ====
/-
  The kernel's input blocks as pieces of the arrays the region finds: at grid point `t` the source-row block is rows
  `6400·t … 6400·t + 6399` of the gathered rows, the type-word block the same lanes of the type row, and the three
  tables' one block is the whole table.
-/
import proofs.«409175_j2662879724148_2_alg».proof.Proof.Gen.KernelIdeal.Frame
import Idealize.ShloMosaic.Lib.Pipeline.Value
import Idealize.ShloMosaic.Lib.ValueIdx

noncomputable section

open scoped BigOperators

namespace Cert.RelGcn

open Idealize.ShloMosaic Idealize.ShloMosaic.TcCoe Idealize.SL.Sem Idealize.ShloMosaic.ValueIdx Cert.KernelIdeal Cert.KernelIdeal.Gen
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps over the grid: the edge windows move one block of rows (of lanes, for the type row) per
    point, the three tables stay put. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row `6400·t + p` of the edge list. -/
theorem row_lt (t : Fin cfg0.N) (p : Fin 6400) : t.val * 6400 + p.val < 640000 := by
  have h1 := t.isLt
  have hN : cfg0.N = 100 := N_0
  have h2 := p.isLt
  omega

/-- The five input blocks at point `t`, each at its literal type. -/
abbrev hsBlk (c : Dev nD) (t : Fin cfg0.N) : Vec Ideal S6400x128 .f32 := iblk m c 0 t
abbrev etBlk (c : Dev nD) (t : Fin cfg0.N) : Vec Ideal S1x6400 .i32 := iblk m c 1 t
abbrev relBlk (c : Dev nD) (t : Fin cfg0.N) : Vec Ideal S208x128 .f32 := iblk m c 2 t
abbrev wltBlk (c : Dev nD) (t : Fin cfg0.N) : Vec Ideal S128x128 .f32 := iblk m c 3 t
abbrev waBlk (c : Dev nD) (t : Fin cfg0.N) : Vec Ideal S1x128 .f32 := iblk m c 4 t

/-- The source-row block at `(p, k)`: the gathered rows' array at row `6400·t + p`. -/
theorem hsBlk_apply (c : Dev nD) (t : Fin cfg0.N) (p : Fin 6400) (k : Fin 128) :
    hsBlk m c t (ix2 p k) = (V m c main_v4 : S640000x128.Idx → EReal) (ix2 ⟨t.val * 6400 + p.val, row_lt t p⟩ k) := by
  obtain ⟨e0, e1, -⟩ := idx_facts t
  show (V m c main_v4 : S640000x128.Idx → EReal) (((cfg0.win 0).blk t).view.emb (ix2 p k)) = _
  refine congrArg _ (funext fun a => Fin.ext ?_)
  match a with
  | ⟨0, _⟩ => show win0_0.index t (0 : Fin 2) * 6400 + 1 * p.val = t.val * 6400 + p.val; rw [e0]; omega
  | ⟨1, _⟩ => show win0_0.index t (1 : Fin 2) * 128 + 1 * k.val = k.val; rw [e1]; omega

/-- The type-word block at `(0, p)`: the type row at lane `6400·t + p`. -/
theorem etBlk_apply (c : Dev nD) (t : Fin cfg0.N) (p : Fin 6400) :
    etBlk m c t (ix2 (0 : Fin 1) p) = (V m c main_v7 : S1x640000.Idx → BitVec 32) (ix2 (0 : Fin 1) ⟨t.val * 6400 + p.val, row_lt t p⟩) := by
  obtain ⟨-, -, e0, e1, -⟩ := idx_facts t
  show (V m c main_v7 : S1x640000.Idx → BitVec 32) (((cfg0.win 1).blk t).view.emb (ix2 (0 : Fin 1) p)) = _
  refine congrArg _ (funext fun a => Fin.ext ?_)
  match a with
  | ⟨0, _⟩ => show win0_1.index t (0 : Fin 2) * 1 + 1 * 0 = 0; rw [e0]
  | ⟨1, _⟩ => show win0_1.index t (1 : Fin 2) * 6400 + 1 * p.val = t.val * 6400 + p.val; rw [e1]; omega

/-- The three resident tables: their one block is the whole array. -/
theorem relBlk_apply (c : Dev nD) (t : Fin cfg0.N) (r : Fin 208) (d : Fin 128) :
    relBlk m c t (ix2 r d) = (V m c main_v6 : S208x128.Idx → EReal) (ix2 r d) := by
  obtain ⟨-, -, -, -, e0, e1, -⟩ := idx_facts t
  show (V m c main_v6 : S208x128.Idx → EReal) (((cfg0.win 2).blk t).view.emb (ix2 r d)) = _
  refine congrArg _ (funext fun a => Fin.ext ?_)
  match a with
  | ⟨0, _⟩ => show win0_2.index t (0 : Fin 2) * 208 + 1 * r.val = r.val; rw [e0]; omega
  | ⟨1, _⟩ => show win0_2.index t (1 : Fin 2) * 128 + 1 * d.val = d.val; rw [e1]; omega

theorem wltBlk_apply (c : Dev nD) (t : Fin cfg0.N) (k j : Fin 128) :
    wltBlk m c t (ix2 k j) = (V m c main_v5 : S128x128.Idx → EReal) (ix2 k j) := by
  obtain ⟨-, -, -, -, -, -, e0, e1, -⟩ := idx_facts t
  show (V m c main_v5 : S128x128.Idx → EReal) (((cfg0.win 3).blk t).view.emb (ix2 k j)) = _
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 128 + 1 * j.val = j.val; rw [e1]; omega

theorem waBlk_apply (c : Dev nD) (t : Fin cfg0.N) (d : Fin 128) :
    waBlk m c t (ix2 (0 : Fin 1) d) = (m ((c.tc : Thread nD τ).loc main_arg5) : S1x128.Idx → EReal) (ix2 (0 : Fin 1) d) := by
  obtain ⟨-, -, -, -, -, -, -, -, e0, e1, -⟩ := idx_facts t
  rw [← V_main_arg5 m c]
  show (V m c main_arg5 : S1x128.Idx → EReal) (((cfg0.win 4).blk t).view.emb (ix2 (0 : Fin 1) d)) = _
  refine congrArg _ (funext fun a => Fin.ext ?_)
  match a with
  | ⟨0, _⟩ => show win0_4.index t (0 : Fin 2) * 1 + 1 * 0 = 0; rw [e0]
  | ⟨1, _⟩ => show win0_4.index t (1 : Fin 2) * 128 + 1 * d.val = d.val; rw [e1]; omega

end Cert.RelGcn

end
-- ==== Proof.KArr.lean ====
/-
  From blocks to the array: what grid point `t` writes back is block `t` of the message array, rows
  `6400·t … 6400·t + 6399`, and the hundred blocks tile the array.
-/
import proofs.«409175_j2662879724148_2_alg».proof.Proof.Gen.KernelIdeal.Frame
import proofs.«409175_j2662879724148_2_alg».proof.Proof.Spec
import proofs.«409175_j2662879724148_2_alg».proof.Proof.KPoint
import proofs.«409175_j2662879724148_2_alg».proof.Proof.KHost
import proofs.«409175_j2662879724148_2_alg».proof.Proof.KBlocks
import Idealize.ShloMosaic.Lib.Pipeline.Value
import Idealize.ShloMosaic.Lib.ValueIdx

noncomputable section

open scoped BigOperators

namespace Cert.RelGcn

open Idealize.ShloMosaic Idealize.ShloMosaic.TcCoe Idealize.SL.Sem Idealize.ShloMosaic.ValueIdx Cert.KernelIdeal Cert.KernelIdeal.Gen
open Idealize.ShloMosaic.Pipeline (Dat)

variable (m : (ℓ : Loc nD τ sig) → Buf (Elt Ideal) ℓ)

/-- Row `p` of the block at point `t` stands for edge `6400·t + p`. -/
abbrev edgeOf (t : Fin cfg0.N) (p : Fin 6400) : Fin 640000 := ⟨t.val * 6400 + p.val, row_lt t p⟩

/-- WHAT POINT `t` WRITES BACK is block `t` of the message array. -/
theorem flushed_eq (c : Dev nD)
    (hs : ∀ e : Fin 640000, -50000 ≤ ((m ((c.tc : Thread nD τ).loc main_arg1)) (ix2 (0 : Fin 2) e)).toInt
      ∧ ((m ((c.tc : Thread nD τ).loc main_arg1)) (ix2 (0 : Fin 2) e)).toInt < 50000)
    (ht : ∀ e : Fin 640000, 0 ≤ ((m ((c.tc : Thread nD τ).loc main_arg2)) (ix1 e)).toInt
      ∧ ((m ((c.tc : Thread nD τ).loc main_arg2)) (ix1 e)).toInt < 200)
    (t : Fin cfg0.N) :
    (dats m 0 c).flushed 5 t = ((cfg0.win 5).blk t).view.read (Elt Ideal) (msg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  show (cfg0.win 5).cut (grid0.coords t) ((dats m 0 c).after 5 t) = _
  rw [after0_5]
  unfold out0_5
  rw [View.canon_unit_zero hz]
  simp only [View.ld_unit_zero (S := S6400x128) hz, View.ld_unit_zero (S := S128x128) hz, View.ld_unit_zero (S := S1x6400) hz,
    View.ld_unit_zero (S := S208x128) hz, View.ld_unit_zero (S := S1x128) hz]
  funext y
  have hy0 : (y 0).val < 6400 := (y 0).isLt
  have hy1 : (y 1).val < 128 := (y 1).isLt
  have hy : (win0 5).xinj (grid0.coords t) y = ix2 (⟨(y 0).val, hy0⟩ : Fin 6400) (⟨(y 1).val, hy1⟩ : Fin 128) := by
    funext a
    match a with
    | ⟨0, _⟩ => rfl
    | ⟨1, _⟩ => rfl
  have key := point_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ht
    (hsBlk m c t) (wltBlk m c t) (etBlk m c t) (relBlk m c t) (waBlk m c t) (edgeOf t)
    (fun p k => (hsBlk_apply m c t p k).trans (V_hsrc m c hs (edgeOf t p) k))
    (fun p => (etBlk_apply m c t p).trans (V_etrow m c (edgeOf t p)))
    (fun r d => (relBlk_apply m c t r d).trans (V_relpad m c r d))
    (fun k j => (wltBlk_apply m c t k j).trans (V_wlt m c k j))
    (fun d => waBlk_apply m c t d)
    ⟨(y 0).val, hy0⟩ ⟨(y 1).val, hy1⟩
  show k0_pay1 (F := Ideal) (hsBlk m c t) (wltBlk m c t) (etBlk m c t) (relBlk m c t) (waBlk m c t)
      ((win0 5).xinj (grid0.coords t) y) = _
  rw [hy, key]
  obtain ⟨-, -, -, -, -, -, -, -, -, -, e0, e1⟩ := idx_facts t
  show msgAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (edgeOf t ⟨(y 0).val, hy0⟩) ⟨(y 1).val, hy1⟩
    = msgAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        ⟨(((win0 5).rect t).emb y 0).val, _⟩ ⟨(((win0 5).rect t).emb y 1).val, _⟩
  have he : (edgeOf t ⟨(y 0).val, hy0⟩ : Fin 640000) = ⟨(((win0 5).rect t).emb y 0).val, (((win0 5).rect t).emb y 0).isLt⟩ :=
    Fin.ext (by
      show t.val * 6400 + (y 0).val = win0_5.index t (0 : Fin 2) * 6400 + 1 * (y 0).val
      rw [e0]; omega)
  have hj : (⟨(y 1).val, hy1⟩ : Fin 128) = ⟨(((win0 5).rect t).emb y 1).val, (((win0 5).rect t).emb y 1).isLt⟩ :=
    Fin.ext (by
      show (y 1).val = win0_5.index t (1 : Fin 2) * 128 + 1 * (y 1).val
      rw [e1]; omega)
  rw [he, hj]

/-- An index of the message array is in point `t`'s block iff each coordinate is in the block's range on its axis. -/
theorem mem_blk (t : Fin cfg0.N) (i : S640000x128.Idx) :
    i ∈ ((cfg0.win 5).blk t).view.set ↔ ∀ a : Fin 2, win0_5.index t a * S6400x128.size a ≤ (i a).val
      ∧ (i a).val < win0_5.index t a * S6400x128.size a + S6400x128.size a := by
  show i ∈ ((View.whole main_v8).slice (win0_5.rect t)).set ↔ _
  rw [View.set_slice_whole, Rect.mem_set_unit]
  exact Iff.rfl

/-- Every edge's row lies in the block of the point `row / 6400`: the hundred blocks tile the array. -/
theorem covered (i : S640000x128.Idx) :
    ∃ t : Fin cfg0.N, (cfg0.win 5).flush t = true ∧ i ∈ ((cfg0.win 5).blk t).view.set := by
  have hi0 : (i 0).val < 640000 := (i 0).isLt
  have hi1 : (i 1).val < 128 := (i 1).isLt
  have hlt : (i 0).val / 6400 < cfg0.N := by
    show (i 0).val / 6400 < grid0.N
    rw [N_0]; omega
  obtain ⟨-, -, -, -, -, -, -, -, -, -, e0, e1⟩ := idx_facts (⟨(i 0).val / 6400, hlt⟩ : Fin cfg0.N)
  refine ⟨⟨(i 0).val / 6400, hlt⟩, flush0_5 _, ?_⟩
  rw [mem_blk]
  intro a
  match a with
  | ⟨0, _⟩ =>
    show win0_5.index ⟨(i 0).val / 6400, hlt⟩ (0 : Fin 2) * 6400 ≤ (i 0).val
      ∧ (i 0).val < win0_5.index ⟨(i 0).val / 6400, hlt⟩ (0 : Fin 2) * 6400 + 6400
    rw [e0]
    show (i 0).val / 6400 * 6400 ≤ (i 0).val ∧ (i 0).val < (i 0).val / 6400 * 6400 + 6400
    omega
  | ⟨1, _⟩ =>
    show win0_5.index ⟨(i 0).val / 6400, hlt⟩ (1 : Fin 2) * 128 ≤ (i 1).val
      ∧ (i 1).val < win0_5.index ⟨(i 0).val / 6400, hlt⟩ (1 : Fin 2) * 128 + 128
    rw [e1]
    omega

/-- THE MESSAGE ARRAY after the region: where every source word indexes the node table and every type word is a row
    of the relation table, the kernel's output array is `msg` of the layer's arguments. -/
theorem final_msg (c : Dev nD)
    (hs : ∀ e : Fin 640000, -50000 ≤ ((m ((c.tc : Thread nD τ).loc main_arg1)) (ix2 (0 : Fin 2) e)).toInt
      ∧ ((m ((c.tc : Thread nD τ).loc main_arg1)) (ix2 (0 : Fin 2) e)).toInt < 50000)
    (ht : ∀ e : Fin 640000, 0 ≤ ((m ((c.tc : Thread nD τ).loc main_arg2)) (ix1 e)).toInt
      ∧ ((m ((c.tc : Thread nD τ).loc main_arg2)) (ix1 e)).toInt < 200) :
    (dats m 0 c).arrAt 5 cfg0.N
      = msg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (dats m 0 c).arrAt_eq_of_cover 5 _ (fun t _ => flushed_eq m c hs ht t) covered

end Cert.RelGcn

end
-- ==== Proof.KTail.lean ====
/-
  After the region: the kernel program scatter-adds the message array onto a zero array at the edges' target words
  and takes the maximum with zero. Its result buffer is that term of the message array the region left.
-/
import proofs.«409175_j2662879724148_2_alg».proof.Proof.Gen.KernelIdeal.Frame
import Idealize.ShloMosaic.Lib.Pipeline.Value
import Idealize.ShloMosaic.Lib.StableHlo.Run
import Idealize.ShloMosaic.PureOps.Ideal

noncomputable section

namespace Cert.RelGcn

open Idealize.ShloMosaic Idealize.ShloMosaic.TcCoe Idealize.SL.Sem Cert.KernelIdeal Cert.KernelIdeal.Gen

variable (m : (ℓ : Loc nD τ sig) → Buf (Elt Ideal) ℓ)

/-- The layer's tail, as one function of the target words' source (the edge list) and a message array. -/
def tailK (ei : (⟨S2x640000, .i32⟩ : BufTy).Contents (Elt Ideal)) (msgs : (⟨S640000x128, .f32⟩ : BufTy).Contents (Elt Ideal)) :
    (⟨S50000x128, .f32⟩ : BufTy).Contents (Elt Ideal) :=
  maximumf (Host.scatterAdd scatter_S50000x128_S640000x1_S640000x128_1_0_0_1
      (broadcastInDim S50000x128 ![] bcast_S_S50000x128 (constant (F := Ideal) S_ .f32 0x00000000#32))
      (broadcastInDim S640000x1 ![0] bcast_S640000_S640000x1_0
        (shapeCast _ (extractStridedSlice S1x640000 ![1, 0] ei slices_S2x640000_S1x640000_1_0) shapeCasts_S1x640000_S640000))
      msgs)
    (broadcastInDim S50000x128 ![] bcast_S_S50000x128 (constant (F := Ideal) S_ .f32 0x00000000#32))

/-- The message array's buffer is the region's sixth window's array: after the region it holds what the region left. -/
private theorem left_main_v8 (c : Dev nD) :
    Pipeline.withArrays (cfgs 0).spec c (V0 m c) (fun w => (dats m 0 c).arrAt w (cfgs 0).N) (Proc.devRef .tc main_v8)
      = (dats m 0 c).arrAt 5 cfg0.N :=
  Pipeline.withArrays_arr spec0 launch0.win.arr_inj c _ _ 5

/-- The target words' buffer is no window's array: after the region it holds what the lines before the region wrote,
    row 1 of the edge list flattened. -/
private theorem left_main_v3 (c : Dev nD) :
    Pipeline.withArrays (cfgs 0).spec c (V0 m c) (fun w => (dats m 0 c).arrAt w (cfgs 0).N) (Proc.devRef .tc main_v3)
      = shapeCast _ (extractStridedSlice S1x640000 ![1, 0] (m ((c.tc : Thread nD τ).loc main_arg1)) slices_S2x640000_S1x640000_1_0)
          shapeCasts_S1x640000_S640000 := by
  rw [Pipeline.withArrays_of_ne _ c (V0 m c) _ main_v3 (by exact (by decide : ∀ w, Pipeline.arrRef spec0 w ≠ main_v3))]
  dsimp only [V0]
  simp only [hostOps0, hostOps0_1, hostOps0_2, hostOps0_3, hostOps0_4, List.flatten_cons, List.flatten_nil, List.append_nil,
    List.cons_append, List.nil_append]
  after_results
  rfl

/-- Contents moved to a buffer's own type and back are the contents. -/
private theorem ofBuf_toBuf {T : BufTy} (x : StableHlo.TRef sig T) (v : T.Contents (Elt Ideal)) :
    x.ofBuf (x.toBuf v) = v := by
  obtain ⟨r, h, h₁, h₂⟩ := x
  subst h
  rfl

/-- The result buffer's type is the result array's: moving contents to it changes nothing. -/
private theorem toBuf_main_v12 (v : (⟨S50000x128, .f32⟩ : BufTy).Contents (Elt Ideal)) :
    (StableHlo.TRef.of main_v12 : StableHlo.TRef sig ⟨S50000x128, .f32⟩).toBuf v = v := rfl

/-- The scatter's buffer's type is the result array's: reading contents from it changes nothing. -/
private theorem ofBuf_main_v11 (v : (⟨S50000x128, .f32⟩ : BufTy).Contents (Elt Ideal)) :
    (StableHlo.TRef.of main_v11 : StableHlo.TRef sig ⟨S50000x128, .f32⟩).ofBuf v = v := rfl

/-- The result buffer after the lines that follow the region. -/
theorem kernel_result (c : Dev nD) :
    Pipeline.afterTail₀ cfgs (dats m) 0 (V0 m) [hostOps1, hostOps1_1] c main_v12
      = tailK (m ((c.tc : Thread nD τ).loc main_arg1)) ((dats m 0 c).arrAt 5 cfg0.N) := by
  unfold Pipeline.afterTail₀
  simp only [hostOps1, hostOps1_1, List.flatten_cons, List.flatten_nil, List.append_nil, List.cons_append, List.nil_append]
  after_results
  rw [left_main_v3 m c, left_main_v8 m c, toBuf_main_v12, ofBuf_main_v11, ofBuf_toBuf, ofBuf_toBuf]
  rfl

end Cert.RelGcn

end
-- ==== Proof.KRun.lean ====
/-
  The kernel program's run, read: under the two index conditions every weakly fair execution ends with the result
  buffer at the layer's tail of the specification's message array, and the arguments as they were.
-/
import proofs.«409175_j2662879724148_2_alg».proof.Proof.Gen.KernelIdeal.Frame
import proofs.«409175_j2662879724148_2_alg».proof.Proof.Spec
import proofs.«409175_j2662879724148_2_alg».proof.Proof.KArr
import proofs.«409175_j2662879724148_2_alg».proof.Proof.KTail

noncomputable section

namespace Cert.RelGcn

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-- THE KERNEL PROGRAM'S RUN. -/
theorem kernel_run
    (hs : ∀ (c : Dev nD) (e : Fin 640000), -50000 ≤ ((m ((c.tc : Thread nD τ).loc main_arg1)) (ix2 (0 : Fin 2) e)).toInt
      ∧ ((m ((c.tc : Thread nD τ).loc main_arg1)) (ix2 (0 : Fin 2) e)).toInt < 50000)
    (ht : ∀ (c : Dev nD) (e : Fin 640000), 0 ≤ ((m ((c.tc : Thread nD τ).loc main_arg2)) (ix1 e)).toInt
      ∧ ((m ((c.tc : Thread nD τ).loc main_arg2)) (ix1 e)).toInt < 200) :
    θ_run (defs (F := Ideal)) (onTc (τ := τ) (main (F := Ideal))) ⟨m, fun _ => 0, ρ⟩ (fun r => ∀ c : Dev nD,
      r.2.mem ((c.tc : Thread nD τ).loc main_v12)
        = tailK (m ((c.tc : Thread nD τ).loc main_arg1))
            (msg (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  exact (θ_run defs _ _).mono (fun r h c =>
    ⟨((h c).2 main_v12 (Pipeline.mem_restRefs_of main_v12 (by decide) (by decide))).trans
        ((kernel_result m c).trans (congrArg (tailK (m ((c.tc : Thread nD τ).loc main_arg1))) (final_msg m c (hs c) (ht c)))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c)))⟩) (run_main m ρ)

end Cert.RelGcn

end
-- ==== Proof.lean ====
/-
  A relational graph-convolution layer on 640000 edges: each edge carries the message

      msg e j = (∑ k, x (src e) k · W j k) · σ (∑ d, (x (src e) d + rel (typ e) d) · a d),

  the messages are added up at the edges' target nodes and the sum is cut off below at zero.

  The kernel program gathers the source rows on the host, computes the messages in a kernel of one hundred blocks of
  6400 edges — the projection as a matrix product, the relation's embedding by a one-hot matrix product against the
  relation table padded to 208 rows, the logit as a lane sum, the logistic as one operation — and scatter-adds on
  the host. The reference gathers, multiplies and scatter-adds on the host throughout. Read on the extended reals
  both message arrays are ONE function of the arguments (`Cert.RelGcn.msg`): the reference's with no side condition,
  the kernel's where every source word indexes the node table (its gather fills with a not-a-number outside) and
  every relation type is a row number of the relation table (its one-hot product gives zero elsewhere) — the two
  conditions the precondition states. No law of the extended reals beyond the sums' own terms is used, so the
  finiteness of the float inputs is never opened. The scatter-add and the maximum with zero are the same host
  operations on both sides, applied to equal arrays.
-/
import proofs.«409175_j2662879724148_2_alg».proof.Defs
import proofs.«409175_j2662879724148_2_alg».proof.Proof.Gen.Kernel
import proofs.«409175_j2662879724148_2_alg».proof.Proof.Gen.Kernel.Frame
import proofs.«409175_j2662879724148_2_alg».proof.Proof.Gen.KernelIdeal
import proofs.«409175_j2662879724148_2_alg».proof.Proof.Gen.KernelIdeal.Frame
import proofs.«409175_j2662879724148_2_alg».proof.Proof.Gen.ReferenceIdeal
import proofs.«409175_j2662879724148_2_alg».proof.Proof.Gen.ReferenceIdeal.Run
import proofs.«409175_j2662879724148_2_alg».proof.Proof.Gen.ReferenceIdeal.Read
import proofs.«409175_j2662879724148_2_alg».proof.Proof.Gen.Pre_finite_inputs
import proofs.«409175_j2662879724148_2_alg».proof.Proof.Spec
import proofs.«409175_j2662879724148_2_alg».proof.Proof.Pre
import proofs.«409175_j2662879724148_2_alg».proof.Proof.RefMsg
import proofs.«409175_j2662879724148_2_alg».proof.Proof.KRun
import Idealize.ShloMosaic.Adequacy
import Idealize.ShloMosaic.Init

noncomputable section

namespace Cert.Proof

open Idealize.ShloMosaic Idealize.ShloMosaic.TcCoe Idealize.SL.Sem Idealize.ShloMosaic.ValueIdx

/-- The three frames: the two kernel programs' are generated whole; the reference's is its run with the result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The reference's tail — scatter-add at the target words, maximum with zero — is the kernel program's. -/
theorem ref_tail_eq (x1 : (⟨Cert.ReferenceIdeal.S2x640000, .i32⟩ : BufTy).Contents (Elt Ideal))
    (M : (⟨Cert.ReferenceIdeal.S640000x128, .f32⟩ : BufTy).Contents (Elt Ideal)) :
    maximumf (F := Ideal) (s := Cert.ReferenceIdeal.S50000x128) (φ := .f32)
        (Host.scatterAdd Cert.ReferenceIdeal.scatter_S50000x128_S640000x1_S640000x128_1_0_0_1 (Cert.ReferenceIdeal.Read.val_main_v38 (F := Ideal))
          (Cert.ReferenceIdeal.Read.val_main_v39 (F := Ideal) x1) M) (Cert.ReferenceIdeal.Read.val_main_call0_v0 (F := Ideal))
      = Cert.RelGcn.tailK x1 M := rfl

/-- The two idealized programs, from memories that agree on the arguments, end with equal results. -/
theorem algebraic : Cert.algebraic_KernelIdeal_ReferenceIdeal := by
  intro m ρ m' ρ' hpre hagree
  have hs : ∀ (c : Dev Cert.KernelIdeal.nD) (e : Fin 640000), -50000 ≤ ((m ((c.tc : Thread Cert.KernelIdeal.nD Cert.KernelIdeal.τ).loc Cert.KernelIdeal.main_arg1)) (ix2 (0 : Fin 2) e)).toInt
      ∧ ((m ((c.tc : Thread Cert.KernelIdeal.nD Cert.KernelIdeal.τ).loc Cert.KernelIdeal.main_arg1)) (ix2 (0 : Fin 2) e)).toInt < 50000 :=
    fun c e => Cert.RelGcn.src_in_range _ _ _ _ _ _ (hpre c) e
  have ht : ∀ (c : Dev Cert.KernelIdeal.nD) (e : Fin 640000), 0 ≤ ((m ((c.tc : Thread Cert.KernelIdeal.nD Cert.KernelIdeal.τ).loc Cert.KernelIdeal.main_arg2)) (ix1 e)).toInt
      ∧ ((m ((c.tc : Thread Cert.KernelIdeal.nD Cert.KernelIdeal.τ).loc Cert.KernelIdeal.main_arg2)) (ix1 e)).toInt < 200 :=
    fun c e => Cert.RelGcn.typ_in_range _ _ _ _ _ _ (hpre c) e
  refine ⟨fun c => Cert.RelGcn.tailK (m ((c.tc : Thread Cert.KernelIdeal.nD Cert.KernelIdeal.τ).loc Cert.KernelIdeal.main_arg1))
    (Cert.RelGcn.msg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))), Cert.RelGcn.kernel_run m ρ hs ht, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5, Cert.ReferenceIdeal.Read.val_main_v41_eq]
  unfold Cert.ReferenceIdeal.Read.val_main_v41 Cert.ReferenceIdeal.Read.val_main_v40
  rw [Cert.RelGcn.ref_msg_eq]
  exact ref_tail_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
